-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S64x4096 : Shape := ⟨2, ![64, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S4096x4096 .f32) (main_arg1 : FVec F S64x4096 .f32) (main_arg2 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x4096 : Shape := ⟨2, ![4096, 4096]⟩
abbrev S64x4096 : Shape := ⟨2, ![64, 4096]⟩
abbrev S_ : Shape := ⟨0, ![]⟩
abbrev S64 : Shape := ⟨1, ![64]⟩
abbrev S64x1 : Shape := ⟨2, ![64, 1]⟩
abbrev S64x512 : Shape := ⟨2, ![64, 512]⟩
abbrev S512x512 : Shape := ⟨2, ![512, 512]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 15
  | .vmem => 17
  | .smem => 0
  | _ => 0

abbrev bufTy : (tb : Table) → Fin (tcTables nBuf tb) → BufTy
  | .hbm, ⟨0, _⟩ => ⟨S4096x4096, .f32⟩
  | .hbm, ⟨1, _⟩ => ⟨S64x4096, .f32⟩
  | .hbm, ⟨2, _⟩ => ⟨S4096x4096, .f32⟩
  | .hbm, ⟨3, _⟩ => ⟨S64x4096, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S64x1, .f32⟩
  | .hbm, ⟨8, _⟩ => ⟨S_, .f32⟩
  | .hbm, ⟨9, _⟩ => ⟨S64x1, .f32⟩
  | .hbm, ⟨10, _⟩ => ⟨S64x1, .f32⟩
  | .hbm, ⟨11, _⟩ => ⟨S64x4096, .f32⟩
  | .hbm, ⟨12, _⟩ => ⟨S64x4096, .f32⟩
  | .hbm, ⟨13, _⟩ => ⟨S4096x4096, .bf16⟩
  | .hbm, ⟨14, _⟩ => ⟨S4096x4096, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S512x512, .bf16⟩
  | .local _ .vmem, ⟨5, _⟩ => ⟨S512x512, .bf16⟩
  | .local _ .vmem, ⟨6, _⟩ => ⟨S1024x512, .f32⟩
  | .local _ .vmem, ⟨7, _⟩ => ⟨S1024x512, .f32⟩
  | .local _ .vmem, ⟨8, _⟩ => ⟨S1024x1024, .f32⟩
  | .local _ .vmem, ⟨9, _⟩ => ⟨S1024x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  reducesTo_S64x4096_S64_d1 : S64x4096.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x4096_0_1 : S64x1.BroadcastsInDim S64x4096 (![0, 1] : Fin 2 → Fin S64x4096.rank)
  inb_S64x512_S64x512_0_0 : ∀ a, (![0, 0] : Fin 2 → Nat) a + S64x512.size a ≤ S64x512.size a
  h_S64x512 : 0 < S64x512.numel
  shapeCasts_S64x512_S64x512 : S64x512.ShapeCasts S64x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  dot_S64x512_S64x512_S512x512_0_0_1_1_n_n_wf : DotDims.WF S64x512 S64x512 S512x512 [0] [0] [1] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x4096.size a
  hwx0_0 : ∀ i : grid0.Coords, EltTy.bits .f32 = 32 ∨ (Rect.block (s := S64x4096) S64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x4096.size a
  hwx0_1 : ∀ i : grid0.Coords, EltTy.bits .f32 = 32 ∨ (Rect.block (s := S64x4096) S64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .bf16 = 32 ∨ (Rect.block (s := S4096x4096) S512x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x4096.size a
  hwx1_0 : ∀ i : grid1.Coords, EltTy.bits .f32 = 32 ∨ (Rect.block (s := S4096x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x4096.size a
  hwx1_2 : ∀ i : grid1.Coords, EltTy.bits .bf16 = 32 ∨ (Rect.block (s := S4096x4096) S512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S4096x4096.size a
  hwx1_4 : ∀ i : grid1.Coords, EltTy.bits .f32 = 32 ∨ (Rect.block (s := S4096x4096) S1024x1024.size (cc1_transform_4 i) (hinb1_4 i)).WholeWords (EltTy.packing .f32)

variable [Facts₀]

def dot_S64x512_S64x512_S512x512_0_0_1_1_n_n : DotDims S64x512 S64x512 S512x512 where
  lhsContracting := [0]
  rhsContracting := [0]
  lhsNonContracting := [1]
  rhsNonContracting := [1]
  lhsBatch := []
  rhsBatch := []
  wf := dot_S64x512_S64x512_S512x512_0_0_1_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v4) S64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S64x4096 : Shape := ⟨2, ![64, 4096]⟩
abbrev S_ : Shape := ⟨0, ![]⟩
abbrev S64 : Shape := ⟨1, ![64]⟩
abbrev S64x1 : Shape := ⟨2, ![64, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S64x4096, .f32⟩
  | .hbm, ⟨2, _⟩ => ⟨S4096x4096, .f32⟩
  | .hbm, ⟨3, _⟩ => ⟨S64x4096, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S64x1, .f32⟩
  | .hbm, ⟨8, _⟩ => ⟨S_, .f32⟩
  | .hbm, ⟨9, _⟩ => ⟨S64x1, .f32⟩
  | .hbm, ⟨10, _⟩ => ⟨S64x1, .f32⟩
  | .hbm, ⟨11, _⟩ => ⟨S64x4096, .f32⟩
  | .hbm, ⟨12, _⟩ => ⟨S64x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .i32⟩
  | .hbm, ⟨18, _⟩ => ⟨S4096x4096, .i32⟩
  | .hbm, ⟨19, _⟩ => ⟨S_, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  reducesTo_S64x4096_S64_d1 : S64x4096.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x4096_0_1 : S64x1.BroadcastsInDim S64x4096 (![0, 1] : Fin 2 → Fin S64x4096.rank)
  bcast_S_S4096x4096 : S_.BroadcastsInDim S4096x4096 (![] : Fin 0 → Fin S4096x4096.rank)
  dot_S64x4096_S64x4096_S4096x4096_0_0_1_1_n_n_wf : DotDims.WF S64x4096 S64x4096 S4096x4096 [0] [0] [1] [1] [] []
  dot_S4096x4096_S4096x4096_S4096x4096_1_0_0_1_n_n_wf : DotDims.WF S4096x4096 S4096x4096 S4096x4096 [1] [0] [0] [1] [] []

variable [Facts₀]

def dot_S64x4096_S64x4096_S4096x4096_0_0_1_1_n_n : DotDims S64x4096 S64x4096 S4096x4096 where
  lhsContracting := [0]
  rhsContracting := [0]
  lhsNonContracting := [1]
  rhsNonContracting := [1]
  lhsBatch := []
  rhsBatch := []
  wf := dot_S64x4096_S64x4096_S4096x4096_0_0_1_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.R0.lean ====
/-
  The first kernel region (the averaged outer product), at any float instance and at any contents `V` of the
  TensorCore's buffers when the region is entered.  Its grid is 8 × 8; at point (i, j) the body loads the two
  64 × 512 column blocks i and j of the normalised rows (both windows read the SAME array), multiplies the
  first's transpose by the second, scales by 2⁻⁶ and stores the 512 × 512 result whole into the output block (i, j).
  Stated here: what each window's staging buffer holds after the body at a point (`dat0`), and that the body,
  run from the input blocks, leaves exactly that (`body_obligation0`).
-/
import proofs.«148084_j73916387164402_1_alg».proof.Proof.Gen.KernelIdeal.Launch
import proofs.«148084_j73916387164402_1_alg».proof.Proof.Gen.KernelIdeal.Skeleton
import proofs.«148084_j73916387164402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 64 × 512 input buffer and the whole 512 × 512 output buffer, as rectangles at the origin. -/
abbrev rIn0 : Rect S64x512 := Rect.unit (s := S64x512) ![0, 0] S64x512.size inb_S64x512_S64x512_0_0
abbrev rOut0 : Rect S512x512 := Rect.unit (s := S512x512) ![0, 0] S512x512.size inb_S512x512_S512x512_0_0

/-- The output window's staging buffer after the body, from the two input blocks: its one store. -/
def out0_2 (x0 x1 : Vec F S64x512 .f32) : Vec F S512x512 .bf16 :=
  View.canon [⟨rOut0, k0_pay1 (View.ld x0 rIn0) (View.ld x1 rIn0)⟩]

/-- The proof data of the first region on core `c`: the arrays as the region finds them; after the body each input
    buffer at its block and the output buffer at `out0_2` of the two input blocks; the two input windows share
    their one array, each holding half of it; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The input windows' buffers when the body runs -/

/-- The first input's current buffer holds its block at every point, fetched there or not: the body leaves the
    block in place, the window is not cut and never idle, so an unfetched point finds the block of the point
    before, whose index is the same. -/
theorem before0_0 (c : Dev nD) (t : Fin cfg0.N) (d) : (dat0 V c).before 0 t d = iblk0 V c 0 t :=
  (Dat.before_in_eq_fetched (dat0 V c) 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The same for the second input, which reads the same array at the block of the other grid coordinate. -/
theorem before0_1 (c : Dev nD) (t : Fin cfg0.N) (d) : (dat0 V c).before 1 t d = iblk0 V c 1 t :=
  (Dat.before_in_eq_fetched (dat0 V c) 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The output's one store covers its buffer -/

/-- The store's rectangle is the whole 512 × 512 buffer, so every index of the buffer lies in it. -/
theorem cover0_2 (p : Vec F S512x512 .bf16) (y : S512x512.Idx) :
    ∃ pc ∈ ([⟨rOut0, p⟩] : List (View.Piece (Elt F) S512x512 .bf16)), y ∈ pc.1.set :=
  View.cover_of_tiled [⟨rOut0, p⟩] S512x512.size (by rfl) y

/-! ## The body's triple -/

set_option maxHeartbeats 1000000 in
/-- On whole buffers, the two inputs' at contents `x0`, `x1` and the output's at anything, the body runs to its
    continuation with the inputs' as they were and the output's at `out0_2 x0 x1`: two loads of the inputs, a load
    of the output nobody reads, and one store of the whole output. -/
theorem sound_kernel0 (c : Dev nD) (E : Set ℕ) (i : grid0.Coords)
    (arg2 : Memref sig .tc .vmem S64x512 .f32) (harg2 : arg2.IsWhole)
    (arg3 : Memref sig .tc .vmem S64x512 .f32) (harg3 : arg3.IsWhole)
    (arg4 : Memref sig .tc .vmem S512x512 .bf16) (harg4 : arg4.IsWhole)
    (x0 x1 : Vec F S64x512 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__outer_kernel i arg2 harg2 arg3 harg3 arg4 harg4) K := by
  simp only [cc0__outer_kernel_eq_skeleton]; unfold cc0__outer_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`: the invariant, what the core owes, and each window's current
    buffer at what it then holds; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two inputs' buffers hold their blocks, so the body's triple applies at those
    blocks; the invariant and what the core owes do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Runs.lean ====
/-
  The second kernel region (the blocked matrix product with its closing step), the part its three cases share.
  The grid is 4 × 4 × 8; the last coordinate k walks the eight stretches of 512 columns of the contracted axis.
  The body keeps a 1024 × 1024 running total in a scratch buffer that lives across grid points: at k = 0 it first
  stores zeros there; at every k it adds the product of the current 1024 × 512 block of W and 512 × 1024 block of
  the outer product; at k = 7 it also stores `W − α · total − lr · G` into the output block.  So a point is in one of
  three cases — A: k = 0; B: 0 < k < 7; C: k = 7 — and the output window is written, and flushed, only in case C.
  Here: the two branch conditions in closed form over the grid, where the output window is idle, the staging and
  scratch memrefs by name, and for each case the body's run on whole buffers, with the pieces its stores leave in
  the scratch (and, in case C, in the output buffer) as the witness.
-/
import proofs.«148084_j73916387164402_1_alg».proof.Proof.Gen.KernelIdeal.Launch
import proofs.«148084_j73916387164402_1_alg».proof.Proof.Gen.KernelIdeal.Skeleton
import proofs.«148084_j73916387164402_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- `k = 0`, as the body computes it from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- `k = 7`, as the body computes it. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last stretch the output window is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- On the last stretch it is live. -/
theorem liveAt1_4 : ∀ t : Fin cfg1.N, cond1_1 (grid1.coords t) → cfg1.idle 4 (grid1.coords t) = false := by decide +kernel

/-! ## The memrefs by name -/

/-- One staging buffer of the output window, through which its contents are stated. -/
abbrev VO1_4 : View sig .tc .vmem S1024x1024 .f32 := (Memref.whole cc1_stg4_0 : Memref sig .tc .vmem S1024x1024 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
/-- The scratch that carries the running total between points, and the view its contents are stated through. -/
abbrev scM1_0 : Memref sig .tc .vmem S1024x1024 .f32 := Memref.whole cc1_scratch0
abbrev VS1_0 : View sig .tc .vmem S1024x1024 .f32 := scM1_0.view

/-- The scoped buffers of this core that the second region neither stages nor carries: the first region's six
    staging buffers, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- Seven conjuncts with the last moved to the front, the other six kept in order and grouped after it. -/
theorem sep_last_first7 {M : Type} [URA M] (A1 A2 A3 A4 A5 A6 S : sProp M) :
    iprop(A1 ∗ A2 ∗ A3 ∗ A4 ∗ A5 ∗ A6 ∗ S) = iprop(S ∗ (A1 ∗ A2 ∗ A3 ∗ A4 ∗ A5 ∗ A6)) := by
  have h₁ : iprop(A1 ∗ A2 ∗ A3 ∗ A4 ∗ A5 ∗ A6 ∗ S) ⊢ iprop(S ∗ (A1 ∗ A2 ∗ A3 ∗ A4 ∗ A5 ∗ A6)) := by
    iintro ⟨H1, H2, H3, H4, H5, H6, HS⟩
    isplitl [HS]; · iexact HS
    isplitl [H1]; · iexact H1
    isplitl [H2]; · iexact H2
    isplitl [H3]; · iexact H3
    isplitl [H4]; · iexact H4
    isplitl [H5]; · iexact H5
    iexact H6
  have h₂ : iprop(S ∗ (A1 ∗ A2 ∗ A3 ∗ A4 ∗ A5 ∗ A6)) ⊢ iprop(A1 ∗ A2 ∗ A3 ∗ A4 ∗ A5 ∗ A6 ∗ S) := by
    iintro ⟨HS, H1, H2, H3, H4, H5, H6⟩
    isplitl [H1]; · iexact H1
    isplitl [H2]; · iexact H2
    isplitl [H3]; · iexact H3
    isplitl [H4]; · iexact H4
    isplitl [H5]; · iexact H5
    isplitl [H6]; · iexact H6
    iexact HS
  exact BI.equiv_iff.mp ⟨h₁, h₂⟩

/-- The region's invariant as the launch hands it over: the scratch at some contents, the scoped rest, and the
    generator register at some state. -/
theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA; rw [scopedRest1_eq]; simp only [scM1_0, owns_whole]
  unfold rest1
  rw [sep_last_first7]
  rfl

/-! ## The body's run, case by case -/

set_option maxHeartbeats 1000000 in
/-- CASE A (`k = 0`): the scratch at anything; the output buffer handed back untouched. -/
noncomputable def kernelRun1_A (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x512 .f32) (x1 : Vec F S1024x1024 .f32) (x2 : Vec F S512x1024 .bf16) (x3 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__mm_kernel i arg3 harg3 arg4 harg4 arg5 harg5 arg6 harg6 arg7 harg7 arg8 harg8) K } := by
  refine ⟨[], ?_, fun xi4 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

set_option maxHeartbeats 1000000 in
/-- CASE B (`0 < k < 7`): the scratch at what the point before left; the output buffer handed back untouched. -/
noncomputable def kernelRun1_B (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x512 .f32) (x1 : Vec F S1024x1024 .f32) (x2 : Vec F S512x1024 .bf16) (x3 : Vec F S1024x1024 .f32) (xs0 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__mm_kernel i arg3 harg3 arg4 harg4 arg5 harg5 arg6 harg6 arg7 harg7 arg8 harg8) K } := by
  refine ⟨[], ?_, fun xi4 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

set_option maxHeartbeats 1000000 in
/-- CASE C (`k = 7`): the scratch at what the point before left; the output buffer at anything, stored whole. -/
noncomputable def kernelRun1_C (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x512 .f32) (x1 : Vec F S1024x1024 .f32) (x2 : Vec F S512x1024 .bf16) (x3 : Vec F S1024x1024 .f32) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__mm_kernel i arg3 harg3 arg4 harg4 arg5 harg5 arg6 harg6 arg7 harg7 arg8 harg8) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2
    obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Hand

end
-- ==== Proof.R1.lean ====
/-
  The second kernel region's proof data, at any float instance and at any contents `V` of the TensorCore's buffers
  when the region is entered.  What the output window's staging buffer and the scratch hold after the body at the
  n-th grid point is defined by recursion on n: the case the point is in (k = 0, 0 < k < 7, k = 7), run at the
  point's input blocks, and in the two later cases on what the point before left in the scratch.  The region's
  invariant before point n + 1 is the scratch at what point n left in it; before the first point, anything.
  The output window is written, and flushed, only at k = 7; elsewhere it is idle and handed back untouched.
-/
import proofs.«148084_j73916387164402_1_alg».proof.Proof.Gen.KernelIdeal.Launch
import proofs.«148084_j73916387164402_1_alg».proof.Proof.Gen.KernelIdeal.Skeleton
import proofs.«148084_j73916387164402_1_alg».proof.Proof.Gen.KernelIdeal.Points
import proofs.«148084_j73916387164402_1_alg».proof.Proof.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What each case leaves in the output buffer and in the scratch: its pieces read back -/

def out1_A_4 (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i) (x0 : Vec F S1024x512 .f32) (x1 : Vec F S1024x1024 .f32) (x2 : Vec F S512x1024 .bf16) (x3 : Vec F S1024x1024 .f32) : Vec F S1024x1024 .f32 :=
  VO1_4.read (Elt F) (VO1_4.writes (Elt F) VO1_4.junk (kernelRun1_A c i arg3 harg3 arg4 harg4 arg5 harg5 arg6 harg6 arg7 harg7 arg8 harg8 hc0 hc1 x0 x1 x2 x3).1)
def sout1_A_0 (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i) (x0 : Vec F S1024x512 .f32) (x1 : Vec F S1024x1024 .f32) (x2 : Vec F S512x1024 .bf16) (x3 : Vec F S1024x1024 .f32) : Vec F S1024x1024 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)
def out1_B_4 (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i) (x0 : Vec F S1024x512 .f32) (x1 : Vec F S1024x1024 .f32) (x2 : Vec F S512x1024 .bf16) (x3 : Vec F S1024x1024 .f32) (xs0 : Vec F S1024x1024 .f32) : Vec F S1024x1024 .f32 :=
  VO1_4.read (Elt F) (VO1_4.writes (Elt F) VO1_4.junk (kernelRun1_B c i arg3 harg3 arg4 harg4 arg5 harg5 arg6 harg6 arg7 harg7 arg8 harg8 hc0 hc1 x0 x1 x2 x3 xs0).1)
def sout1_B_0 (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i) (x0 : Vec F S1024x512 .f32) (x1 : Vec F S1024x1024 .f32) (x2 : Vec F S512x1024 .bf16) (x3 : Vec F S1024x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)
def out1_C_4 (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i) (x0 : Vec F S1024x512 .f32) (x1 : Vec F S1024x1024 .f32) (x2 : Vec F S512x1024 .bf16) (x3 : Vec F S1024x1024 .f32) (xs0 : Vec F S1024x1024 .f32) : Vec F S1024x1024 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)
def sout1_C_0 (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i) (x0 : Vec F S1024x512 .f32) (x1 : Vec F S1024x1024 .f32) (x2 : Vec F S512x1024 .bf16) (x3 : Vec F S1024x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

/-! ## Point by point -/

/-- What the body leaves at point `t` in (the output buffer, the scratch), given what the scratch held before it
    (`prev`; case A does not look at it). -/
def pointOut1 (c : Dev nD) (t : Fin cfg1.N) (prev : Vec F S1024x1024 .f32) : Vec F S1024x1024 .f32 × Vec F S1024x1024 .f32 :=
  if h0 : t.val % 8 = 0 then
    (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => by have := (hcond1_1 t).mp h; omega) (iblk1 V c 0 t) (iblk1 V c 1 t) (iblk1 V c 2 t) (iblk1 V c 3 t),
     sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => by have := (hcond1_1 t).mp h; omega) (iblk1 V c 0 t) (iblk1 V c 1 t) (iblk1 V c 2 t) (iblk1 V c 3 t))
  else if h1 : t.val % 8 = 7 then
    (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) prev,
     sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) prev)
  else
    (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) prev,
     sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) prev)

/-- THE ACCUMULATION: (output buffer, scratch) after the body at position `n`. -/
def outsAt1 (c : Dev nD) : (n : ℕ) → n < cfg1.N → Vec F S1024x1024 .f32 × Vec F S1024x1024 .f32
  | 0, hn => pointOut1 V c ⟨0, hn⟩ (VS1_0.read (Elt F) VS1_0.junk)
  | n + 1, hn => pointOut1 V c ⟨n + 1, hn⟩ (outsAt1 c n (Nat.lt_of_succ_lt hn)).2

/-- At any point after the first, `outsAt1` is the point's step over what the point before left in the scratch. -/
theorem outsAt1_pos (c : Dev nD) (t : Fin cfg1.N) (ht : t.val ≠ 0) :
    outsAt1 V c t.val t.isLt = pointOut1 V c t (outsAt1 V c (t.val - 1) (Nat.lt_of_le_of_lt (Nat.sub_le _ _) t.isLt)).2 := by
  obtain ⟨n, hn⟩ := t
  cases n with
  | zero => exact absurd rfl ht
  | succ n => rfl

/-- At a point with `k = 0` it is case A's step (which does not read the scratch). -/
theorem outsAt1_zero (c : Dev nD) (t : Fin cfg1.N) (h0 : t.val % 8 = 0) (prev : Vec F S1024x1024 .f32) :
    outsAt1 V c t.val t.isLt = pointOut1 V c t prev := by
  have key : ∀ p q : Vec F S1024x1024 .f32, pointOut1 V c t p = pointOut1 V c t q := by
    intro p q; unfold pointOut1; rw [dif_pos h0, dif_pos h0]
  obtain ⟨n, hn⟩ := t
  cases n with
  | zero => exact key _ _
  | succ n => exact key _ _

/-! ## The invariant: the scratch carried between points -/

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ rest1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

/-! ## The proof data -/

/-- The proof data of the second region on core `c`: the arrays as the region finds them; after the body each input
    buffer at its block and the output buffer at `outsAt1`'s first component; the invariant `PhiS1`; the two input
    windows on `W` share that one array, each holding half of it; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-! ## Each case's pieces cover the buffer they are stored into -/

/-- Case A's pieces for the scratch cover it. -/
theorem scover1_A_0 (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i) (x0 : Vec F S1024x512 .f32) (x1 : Vec F S1024x1024 .f32) (x2 : Vec F S512x1024 .bf16) (x3 : Vec F S1024x1024 .f32) (y : S1024x1024.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1024x1024.size (by sl_kernel_rfl) y

/-- Case B's pieces for the scratch cover it. -/
theorem scover1_B_0 (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i) (x0 : Vec F S1024x512 .f32) (x1 : Vec F S1024x1024 .f32) (x2 : Vec F S512x1024 .bf16) (x3 : Vec F S1024x1024 .f32) (xs0 : Vec F S1024x1024 .f32) (y : S1024x1024.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S1024x1024.size (by sl_kernel_rfl) y

/-- Case C's pieces for the scratch cover it, -/
theorem scover1_C_0 (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i) (x0 : Vec F S1024x512 .f32) (x1 : Vec F S1024x1024 .f32) (x2 : Vec F S512x1024 .bf16) (x3 : Vec F S1024x1024 .f32) (xs0 : Vec F S1024x1024 .f32) (y : S1024x1024.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x1024.size (by sl_kernel_rfl) y

/-- and its pieces for the output buffer cover that. -/
theorem cover1_C_4 (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i) (x0 : Vec F S1024x512 .f32) (x1 : Vec F S1024x1024 .f32) (x2 : Vec F S512x1024 .bf16) (x3 : Vec F S1024x1024 .f32) (xs0 : Vec F S1024x1024 .f32) (y : S1024x1024.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1024x1024.size (by sl_kernel_rfl) y

/-! ## `outsAt1` case by case -/

/-- At a point with `k = 0`: case A's contents. -/
theorem outsAt1_A (c : Dev nD) (t : Fin cfg1.N) (h0 : t.val % 8 = 0) (hc0 : cond1_0 (grid1.coords t)) (hc1 : ¬cond1_1 (grid1.coords t)) :
    outsAt1 V c t.val t.isLt
      = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t),
         sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t)) := by
  rw [outsAt1_zero V c t h0 (VS1_0.read (Elt F) VS1_0.junk)]
  unfold pointOut1
  rw [dif_pos h0]

/-- At a point with `0 < k < 7`: case B's contents, over what the point before left in the scratch. -/
theorem outsAt1_B (c : Dev nD) (t : Fin cfg1.N) (h0 : ¬t.val % 8 = 0) (h1 : ¬t.val % 8 = 7) (hc0 : ¬cond1_0 (grid1.coords t)) (hc1 : ¬cond1_1 (grid1.coords t)) :
    outsAt1 V c t.val t.isLt
      = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2,
         sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2) := by
  rw [outsAt1_pos V c t (fun hz => h0 (by omega))]
  unfold pointOut1
  rw [dif_neg h0, dif_neg h1]

/-- At a point with `k = 7`: case C's contents, over what the point before left in the scratch. -/
theorem outsAt1_C (c : Dev nD) (t : Fin cfg1.N) (h0 : ¬t.val % 8 = 0) (h1 : t.val % 8 = 7) (hc0 : ¬cond1_0 (grid1.coords t)) (hc1 : cond1_1 (grid1.coords t)) :
    outsAt1 V c t.val t.isLt
      = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2,
         sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2) := by
  rw [outsAt1_pos V c t (fun hz => h0 (by omega))]
  unfold pointOut1
  rw [dif_neg h0, dif_pos h1]

/-! ## What the body finds in the windows' buffers, and what it leaves there -/

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-- An input window is live everywhere: the body leaves its buffer at its block. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]
/-- The output window where it is live: its buffer at `outsAt1`'s first component. -/
theorem leaves1_4_live (c : Dev nD) (t : Fin cfg1.N) (hc1 : cond1_1 (grid1.coords t)) :
    (dat1 V c).leavesExact 4 t = owns (c : Thread nD τ) (ms1_4 t) fullShare (outsAt1 V c t.val t.isLt).1 := by
  unfold Dat.leavesExact; rw [liveAt1_4 t hc1, after1_4]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at a point with `k = 0`: the inputs' buffers hold their blocks; the invariant hands over the scratch at
    anything (at the first point as the launch left it, later at what the point before left, which is forgotten);
    the run of case A applies; the scratch comes back at this point's contents, since the case's pieces cover it; the
    output window is idle and its buffer comes back as it was found. -/
theorem sound_body1_A (c : Dev nD) (t : Fin cfg1.N) (h0 : t.val % 8 = 0) :
    bodyPre1 V c t ⊢ wp frame (wpE (defs₀ (F := F)) Variants.none c none) Set.univ (bodyAt1 t) (fun _ => bodyPost1 V c t) := by
  have hc0 : cond1_0 (grid1.coords t) := (hcond1_0 t).mpr h0
  have hc1 : ¬cond1_1 (grid1.coords t) := fun h => by have := (hcond1_1 t).mp h; omega
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  rw [Dat.leavesExact_idle (dat1 V c) 4 t (idleAt1_4 t hc1) (noFlush1_4 t hc1)]
  rw [outsAt1_A V c t h0 hc0 hc1]
  unfold sout1_A_0; dsimp only
  by_cases hz : t.val = 0
  · rw [PhiS1_castSucc V c t, PhiS1_zero V c _ _ hz, PhiA1_eq]
    iintro ⟨⟨⟨HS0, Hr⟩, Hg⟩, Ho, ⟨%d0, H0⟩, ⟨%d1, H1⟩, ⟨%d2, H2⟩, ⟨%d3, H3⟩, ⟨%d4, H4⟩⟩
    iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t)).2.2 ((dat1 V c).before 4 t d4) Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t))
        iexact Hr
      iexact Hg
    isplitl [Ho]; · iexact Ho
    isplitl [H0]; · iexact H0
    isplitl [H1]; · iexact H1
    isplitl [H2]; · iexact H2
    isplitl [H3]; · iexact H3
    iexists _; iexact H4
  · rw [PhiS1_castSucc V c t, PhiS1_pos V c _ _ hz]
    iintro ⟨⟨⟨HS0, Hr⟩, Hg⟩, Ho, ⟨%d0, H0⟩, ⟨%d1, H1⟩, ⟨%d2, H2⟩, ⟨%d3, H3⟩, ⟨%d4, H4⟩⟩
    iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t)).2.2 ((dat1 V c).before 4 t d4) Set.univ _)
    isplitl [H0]; · iexact H0
    isplitl [H1]; · iexact H1
    isplitl [H2]; · iexact H2
    isplitl [H3]; · iexact H3
    isplitl [H4]; · iexact H4
    isplitl [HS0]; · iexists _; iexact HS0
    iintro ⟨H0, H1, H2, H3, H4, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t))
        iexact Hr
      iexact Hg
    isplitl [Ho]; · iexact Ho
    isplitl [H0]; · iexact H0
    isplitl [H1]; · iexact H1
    isplitl [H2]; · iexact H2
    isplitl [H3]; · iexact H3
    iexists _; iexact H4

set_option maxHeartbeats 4800000 in
/-- The body at a point with `0 < k < 7`: the invariant hands over the scratch at what the point before left; the
    run of case B applies; the scratch comes back at this point's contents; the output window is idle and its buffer
    comes back as it was found. -/
theorem sound_body1_B (c : Dev nD) (t : Fin cfg1.N) (h0 : ¬t.val % 8 = 0) (h1 : ¬t.val % 8 = 7) :
    bodyPre1 V c t ⊢ wp frame (wpE (defs₀ (F := F)) Variants.none c none) Set.univ (bodyAt1 t) (fun _ => bodyPost1 V c t) := by
  have hc0 : ¬cond1_0 (grid1.coords t) := fun h => h0 ((hcond1_0 t).mp h)
  have hc1 : ¬cond1_1 (grid1.coords t) := fun h => h1 ((hcond1_1 t).mp h)
  have hz : t.val ≠ 0 := fun hz => h0 (by omega)
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  rw [Dat.leavesExact_idle (dat1 V c) 4 t (idleAt1_4 t hc1) (noFlush1_4 t hc1)]
  rw [outsAt1_B V c t h0 h1 hc0 hc1]
  unfold sout1_B_0; dsimp only
  rw [PhiS1_castSucc V c t, PhiS1_pos V c _ _ hz]
  iintro ⟨⟨⟨HS0, Hr⟩, Hg⟩, Ho, ⟨%d0, H0⟩, ⟨%d1, H1⟩, ⟨%d2, H2⟩, ⟨%d3, H3⟩, ⟨%d4, H4⟩⟩
  iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2).2.2 ((dat1 V c).before 4 t d4) Set.univ _)
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, H4, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2)
      iexact Hr
    iexact Hg
  isplitl [Ho]; · iexact Ho
  isplitl [H0]; · iexact H0
  isplitl [H1]; · iexact H1
  isplitl [H2]; · iexact H2
  isplitl [H3]; · iexact H3
  iexists _; iexact H4

set_option maxHeartbeats 4800000 in
/-- The body at a point with `k = 7`: the invariant hands over the scratch at what the point before left; the output
    window is live, its buffer handed over at anything; the run of case C applies; the scratch and the output buffer
    come back at this point's contents, since the case's pieces cover each. -/
theorem sound_body1_C (c : Dev nD) (t : Fin cfg1.N) (h0 : ¬t.val % 8 = 0) (h1 : t.val % 8 = 7) :
    bodyPre1 V c t ⊢ wp frame (wpE (defs₀ (F := F)) Variants.none c none) Set.univ (bodyAt1 t) (fun _ => bodyPost1 V c t) := by
  have hc0 : ¬cond1_0 (grid1.coords t) := fun h => h0 ((hcond1_0 t).mp h)
  have hc1 : cond1_1 (grid1.coords t) := (hcond1_1 t).mpr h1
  have hz : t.val ≠ 0 := fun hz => h0 (by omega)
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  rw [leaves1_4_live V c t hc1]
  rw [outsAt1_C V c t h0 h1 hc0 hc1]
  unfold out1_C_4 sout1_C_0; dsimp only
  rw [PhiS1_castSucc V c t, PhiS1_pos V c _ _ hz]
  iintro ⟨⟨⟨HS0, Hr⟩, Hg⟩, Ho, ⟨%d0, H0⟩, ⟨%d1, H1⟩, ⟨%d2, H2⟩, ⟨%d3, H3⟩, ⟨%d4, H4⟩⟩
  iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2)
      iexact Hr
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2)

/-- The body at any point: the closed forms say which case the point is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 8 = 0
  · exact sound_body1_A V c t h0
  · by_cases h1 : t.val % 8 = 7
    · exact sound_body1_C V c t h0 h1
    · exact sound_body1_B V c t h0 h1

/-- The body obligation of the second region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 :=
  Entails.of_eq (PhiS1_zero V c 0 (Nat.zero_le _) rfl).symm

/-- After any point the invariant gives it back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- After the last point the invariant gives it back: the scratch's named contents are forgotten. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.Launch.lean ====
/-
  The whole program, run from the launch to the return, at any float instance.  @main is four items in order: the
  five host operations of the row norm, the five that normalise the rows, the first kernel region and the second.
  Between items a core's unscoped buffers are held whole at named contents: as launched; after each host stretch at
  what its operations compute; after the first region with its output array at what its write-backs leave; after the
  second likewise.  Each region takes its windows' arrays out of those buffers on entry and puts them back on exit.
  In both regions TWO input windows read ONE array, so that array's buffer is dealt between them in two half shares
  on entry and made whole again on exit; an input window never writes, so both halves come back as they went in.
  The run's end state is read against the last contents: the result buffer holds what the second region's
  write-backs leave, and no item writes an argument, so the three arguments end as launched.
-/
import proofs.«148084_j73916387164402_1_alg».proof.Proof.R0
import proofs.«148084_j73916387164402_1_alg».proof.Proof.R1
import proofs.«148084_j73916387164402_1_alg».proof.Proof.Gen.KernelIdeal.Regions
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's unscoped buffers when region 0 is entered, read at a TensorCore reference. -/
abbrev E2 (c : Dev nD) (b : Ref sig .tc) : Buf (Elt F) ((c : Thread nD τ).loc b) := Gen.V2 m c b
/-- After region 0: its output array at what its write-backs leave, everything else as entered. -/
def W3 (c : Dev nD) : Valuation τ sig (Elt F) :=
  Function.update (Gen.V2 m c) main_v5 ((dat0 (E2 m) c).arrAt 2 cfg0.N)
abbrev E3 (c : Dev nD) (b : Ref sig .tc) : Buf (Elt F) ((c : Thread nD τ).loc b) := W3 m c b
/-- After region 1. -/
def W4 (c : Dev nD) : Valuation τ sig (Elt F) :=
  Function.update (W3 m c) main_v6 ((dat1 (E3 m) c).arrAt 4 cfg1.N)

theorem W3_v5 (c : Dev nD) : W3 m c main_v5 = (dat0 (E2 m) c).arrAt 2 cfg0.N := by
  unfold W3; exact Function.update_self ..
theorem W4_v6 (c : Dev nD) : W4 m c main_v6 = (dat1 (E3 m) c).arrAt 4 cfg1.N := by
  unfold W4; exact Function.update_self ..

/-- The arrays' buffers of region 0, enumerated. -/
theorem arrImage0 : Finset.univ.image (Pipeline.arrRef spec0) = {main_v4, main_v5} := by decide

theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v4) ↦{fullShare} V main_v4) ∗ (((c : Thread nD τ).loc main_v5) ↦{fullShare} V main_v5)) := by
  unfold Pipeline.arrBufs
  rw [arrImage0, BI.bigSep_insert (by decide), BI.bigSep_singleton]
  rfl

/-- Region 0's windowed arrays at the proof data's shares: the two input windows each hold half of the one array they read. -/
theorem arrays0_eq (c : Dev nD) (V : (c : Dev nD) → (b : Ref sig .tc) → Buf (Elt F) ((c : Thread nD τ).loc b))
    (Fn : (w : Fin cfg0.W) → Buf (Elt F) ((cfg0.win w).arr.view.loc (c.tc : Thread nD τ))) :
    ((dat0 V c).arrays Fn : sProp 𝕄)
      = iprop((((c : Thread nD τ).loc main_v4) ↦{fullShare.left} Fn 0) ∗ (((c : Thread nD τ).loc main_v4) ↦{fullShare.right} Fn 1)
          ∗ (((c : Thread nD τ).loc main_v5) ↦{fullShare} Fn 2)) := by
  unfold Dat.arrays
  rw [bigSep_W0, (arr_whole0 0).set_eq_univ, (arr_whole0 2).set_eq_univ]
  rfl

/-- ENTRY of region 0: the core's unscoped buffers are the region's arrays at its entry contents — the array the two
    input windows read split in two halves — and the rest. -/
theorem arrays_of_ub0 (c : Dev nD) (V : (c : Dev nD) → (b : Ref sig .tc) → Buf (Elt F) ((c : Thread nD τ).loc b)) :
    (unscopedBufs (Ix := Unit) (Name := ℕ) (U := UR sig nD τ) (Lvl := ℕ) c (V c) : sProp 𝕄)
      ⊢ iprop((dat0 V c).arrays ((dat0 V c).arrAt · 0) ∗ Pipeline.unscopedRest spec0 c (V c)) := by
  rw [Pipeline.unscopedBufs_split₀ cfgs (0 : Fin 2) winFacts₀0.arr_unscoped c (V c)]
  show (iprop(Pipeline.arrBufs spec0 c (V c) ∗ Pipeline.unscopedRest spec0 c (V c)) : sProp 𝕄) ⊢ _
  rw [arrBufs0_eq, arrays0_eq]
  iintro ⟨⟨Hx, Hy⟩, Hr⟩
  ihave Hx := (pointsTo_share (PosShare.mem_left_op_right fullShare)).1 $$ Hx
  icases Hx with ⟨Ha, Hb⟩
  isplitr [Hr]
  · isplitl [Ha]; · iexact Ha
    isplitl [Hb]; · iexact Hb
    iexact Hy
  · iexact Hr

/-- EXIT of region 0: its arrays at contents `Fn` and the rest at `V c` are the core's unscoped buffers at any
    valuation `V'` that has the arrays at `Fn` and agrees with `V c` off them; the two halves of the shared array rejoin. -/
theorem ub_of_arrays0 (c : Dev nD) (V : (c : Dev nD) → (b : Ref sig .tc) → Buf (Elt F) ((c : Thread nD τ).loc b))
    (V' : (b : Ref sig .tc) → Buf (Elt F) ((c : Thread nD τ).loc b))
    (Fn : (w : Fin cfg0.W) → Buf (Elt F) ((cfg0.win w).arr.view.loc (c.tc : Thread nD τ)))
    (h0 : Fn 0 = V' main_v4) (h1 : Fn 1 = V' main_v4) (h2 : Fn 2 = V' main_v5)
    (hrest : ∀ b, b ∉ Finset.univ.image (Pipeline.arrRef spec0) → V' b = V c b) :
    iprop((dat0 V c).arrays Fn ∗ Pipeline.unscopedRest spec0 c (V c))
      ⊢ (unscopedBufs (Ix := Unit) (Name := ℕ) (U := UR sig nD τ) (Lvl := ℕ) c V' : sProp 𝕄) := by
  rw [Pipeline.unscopedBufs_split₀ cfgs (0 : Fin 2) winFacts₀0.arr_unscoped c V']
  show _ ⊢ (iprop(Pipeline.arrBufs spec0 c V' ∗ Pipeline.unscopedRest spec0 c V') : sProp 𝕄)
  rw [arrBufs0_eq, arrays0_eq, h0, h1, h2]
  have hr : (Pipeline.unscopedRest (Ix := Unit) (Name := ℕ) (U := UR sig nD τ) (Lvl := ℕ) spec0 c (V c) : sProp 𝕄)
      = Pipeline.unscopedRest spec0 c V' := by
    unfold Pipeline.unscopedRest
    exact bigSep_congr fun b hb => by rw [hrest b (Finset.mem_sdiff.mp hb).2]
  rw [hr]
  iintro ⟨⟨Ha, Hb, H5⟩, Hr⟩
  isplitr [Hr]
  · isplitr [H5]
    · iapply (pointsTo_share (PosShare.mem_left_op_right fullShare)).2
      isplitl [Ha]; · iexact Ha
      iexact Hb
    · iexact H5
  · iexact Hr

/-! ## Region 1's arrays: the two windows on `W` share it -/

theorem arrImage1 : Finset.univ.image (Pipeline.arrRef spec1) = {main_arg0, main_v5, main_arg2, main_v6} := by decide

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v5) ↦{fullShare} V main_v5)
          ∗ (((c : Thread nD τ).loc main_arg2) ↦{fullShare} V main_arg2) ∗ (((c : Thread nD τ).loc main_v6) ↦{fullShare} V main_v6)) := by
  unfold Pipeline.arrBufs
  rw [arrImage1, BI.bigSep_insert (by decide), BI.bigSep_insert (by decide), BI.bigSep_insert (by decide), BI.bigSep_singleton]
  rfl

theorem arrays1_eq (c : Dev nD) (V : (c : Dev nD) → (b : Ref sig .tc) → Buf (Elt F) ((c : Thread nD τ).loc b))
    (Fn : (w : Fin cfg1.W) → Buf (Elt F) ((cfg1.win w).arr.view.loc (c.tc : Thread nD τ))) :
    ((dat1 V c).arrays Fn : sProp 𝕄)
      = iprop((((c : Thread nD τ).loc main_arg0) ↦{fullShare.left} Fn 0) ∗ (((c : Thread nD τ).loc main_arg0) ↦{fullShare.right} Fn 1)
          ∗ (((c : Thread nD τ).loc main_v5) ↦{fullShare} Fn 2) ∗ (((c : Thread nD τ).loc main_arg2) ↦{fullShare} Fn 3)
          ∗ (((c : Thread nD τ).loc main_v6) ↦{fullShare} Fn 4)) := by
  unfold Dat.arrays
  rw [bigSep_W1, (arr_whole1 0).set_eq_univ, (arr_whole1 2).set_eq_univ, (arr_whole1 3).set_eq_univ, (arr_whole1 4).set_eq_univ]
  rfl

theorem arrays_of_ub1 (c : Dev nD) (V : (c : Dev nD) → (b : Ref sig .tc) → Buf (Elt F) ((c : Thread nD τ).loc b)) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [Pipeline.unscopedBufs_split₀ cfgs (1 : Fin 2) winFacts₀1.arr_unscoped c (V c)]
  show (iprop(Pipeline.arrBufs spec1 c (V c) ∗ Pipeline.unscopedRest spec1 c (V c)) : sProp 𝕄) ⊢ _
  rw [arrBufs1_eq, arrays1_eq]
  iintro ⟨⟨Hw, Ho, Hg, Hz⟩, Hr⟩
  ihave Hw := (pointsTo_share (PosShare.mem_left_op_right fullShare)).1 $$ Hw
  icases Hw with ⟨Ha, Hb⟩
  isplitr [Hr]
  · isplitl [Ha]; · iexact Ha
    isplitl [Hb]; · iexact Hb
    isplitl [Ho]; · iexact Ho
    isplitl [Hg]; · iexact Hg
    iexact Hz
  · iexact Hr

theorem ub_of_arrays1 (c : Dev nD) (V : (c : Dev nD) → (b : Ref sig .tc) → Buf (Elt F) ((c : Thread nD τ).loc b))
    (V' : (b : Ref sig .tc) → Buf (Elt F) ((c : Thread nD τ).loc b))
    (Fn : (w : Fin cfg1.W) → Buf (Elt F) ((cfg1.win w).arr.view.loc (c.tc : Thread nD τ)))
    (h0 : Fn 0 = V' main_arg0) (h1 : Fn 1 = V' main_arg0) (h2 : Fn 2 = V' main_v5) (h3 : Fn 3 = V' main_arg2) (h4 : Fn 4 = V' main_v6)
    (hrest : ∀ b, b ∉ Finset.univ.image (Pipeline.arrRef spec1) → V' b = V c b) :
    iprop((dat1 V c).arrays Fn ∗ Pipeline.unscopedRest spec1 c (V c))
      ⊢ (unscopedBufs (Ix := Unit) (Name := ℕ) (U := UR sig nD τ) (Lvl := ℕ) c V' : sProp 𝕄) := by
  rw [Pipeline.unscopedBufs_split₀ cfgs (1 : Fin 2) winFacts₀1.arr_unscoped c V']
  show _ ⊢ (iprop(Pipeline.arrBufs spec1 c V' ∗ Pipeline.unscopedRest spec1 c V') : sProp 𝕄)
  rw [arrBufs1_eq, arrays1_eq, h0, h1, h2, h3, h4]
  have hr : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by rw [hrest b (Finset.mem_sdiff.mp hb).2]
  rw [hr]
  iintro ⟨⟨Ha, Hb, H5, H2, H6⟩, Hr⟩
  isplitr [Hr]
  · isplitl [Ha Hb]
    · iapply (pointsTo_share (PosShare.mem_left_op_right fullShare)).2
      isplitl [Ha]; · iexact Ha
      iexact Hb
    isplitl [H5]; · iexact H5
    isplitl [H2]; · iexact H2
    iexact H6
  · iexact Hr

/-! ## The proof data family, and what rides beside the buffers -/

/-- The prefetched tables' admissible contents: no pipeline has a table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (cfgs p) c
  | ⟨0, _⟩ => fun c => dat0 (E2 m) c
  | ⟨1, _⟩ => fun c => dat1 (E3 m) c

abbrev 𝒱₀ : Variants := Variants.none
abbrev Lv : GSem nD τ sig → Finset Unit := fun _ => ∅
abbrev lv : GSem nD τ sig → Unit → ℕ := fun _ _ => 0
/-- The core's generator register at some state and its `owes` at nothing ride beside the buffers through every item. -/
abbrev Rr (c : Dev nD) : sProp 𝕄 := iprop((∃ r, prngReg c r) ∗ ∃ W, owes (c : Thread nD τ) (0 : CellTallies nD τ sig Unit) W)
abbrev Er : Fin 3 → Dev nD → sProp 𝕄 := fun _ c => Rr (F := F) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tn (c : Dev nD) : sProp 𝕄 := iprop(StableHlo.held (c : Thread nD τ) (Pipeline.ucRefs τ sig) (W4 m c) ∗ ∃ r, prngReg c r)

/-! ## What the valuations hold off the regions' outputs -/

theorem W3_of_ne (c : Dev nD) (b : Ref sig .tc) (h : b ≠ main_v5) : W3 m c b = Gen.V2 m c b := by
  unfold W3; exact Function.update_of_ne (StableHlo.devRef_ne_of_ne h) ..
theorem W4_of_ne (c : Dev nD) (b : Ref sig .tc) (h : b ≠ main_v6) : W4 m c b = W3 m c b := by
  unfold W4; exact Function.update_of_ne (StableHlo.devRef_ne_of_ne h) ..

theorem W4_arg (c : Dev nD) (b : Ref sig .tc) (h6 : b ≠ main_v6) (h5 : b ≠ main_v5) (h1 : b ∉ hostOps0_1_W) (h0 : b ∉ hostOps0_W) :
    W4 m c b = m ((c : Thread nD τ).loc b) :=
  (W4_of_ne m c b h6).trans <| (W3_of_ne m c b h5).trans <| (Gen.V2_of m c b h1).trans <| (Gen.V1_of m c b h0).trans rfl

/-! ## The two regions as segments -/

set_option backward.isDefEq.respectTransparency.types false in
/-- REGION 0 over the thread state: entered from every unscoped buffer at the contents after the two host stretches,
    left with its output array at what its write-backs leave. -/
def reg0 : Pipeline.RegionSeg (pcfgs (F := F)) adm (pdats m) () defs₀ 𝒱₀ Lv lv 0 where
  win := winFacts₀0
  block_pos := block_pos0
  stage_whole := stage_whole0
  K := PEmpty
  osem k := k.elim
  ho := Pipeline.OwnSemFacts.none _
  hbody c := (body_obligation0 (E2 m) c).loose
  hwaits := Pipeline.hwaits_of_owed_zero _ _ _ _ Lv lv 0 fun _ _ => rfl
  pre c := iprop(StableHlo.held (c : Thread nD τ) (Pipeline.ucRefs τ sig) (Gen.V2 m c) ∗ Rr c)
  post c := iprop(StableHlo.held (c : Thread nD τ) (Pipeline.ucRefs τ sig) (W3 m c) ∗ Rr c)
  X c := iprop(∃ r, prngReg c r)
  Y c := iprop(∃ r, prngReg c r)
  Z c := Pipeline.unscopedRest (Ix := Unit) (Name := ℕ) (U := UR sig nD τ) (Lvl := ℕ) spec0 c (E2 m c)
  hentry c := by
    rw [Pipeline.ownSems0_none]
    have hsplit := arrays_of_ub0 (F := F) c (E2 m)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := ub_of_arrays0 (F := F) c (E2 m) (E3 m c) ((pdats m 0 c).arrAt · cfg0.N)
      (((dat0 (E2 m) c).arrAt_in 0 rfl _).trans ((A_eq0 (E2 m) c 0).trans (W3_of_ne m c main_v4 (by decide)).symm))
      (((dat0 (E2 m) c).arrAt_in 1 rfl _).trans ((A_eq0 (E2 m) c 1).trans (W3_of_ne m c main_v4 (by decide)).symm))
      (W3_v5 m c).symm
      (fun b hb => W3_of_ne m c b (fun e => hb (by rw [e, arrImage0]; decide)))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 1 over the thread state: entered from region 0's exit contents, left with its output array at what its
    write-backs leave; the generator register and the scoped rest pass through its invariant. -/
def reg1 : Pipeline.RegionSeg (pcfgs (F := F)) adm (pdats m) () defs₀ 𝒱₀ Lv lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ Lv lv 1 fun _ _ => rfl
  pre c := iprop(StableHlo.held (c : Thread nD τ) (Pipeline.ucRefs τ sig) (W3 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := arrays_of_ub1 (F := F) c (E3 m)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E3 m) c)
    unfold Pipeline.ΦA
    iintro ⟨Hp, -, Hr⟩
    isplitl [Hr]; · iexact Hr
    iexact Hp
  hout c := by
    rw [Pipeline.ownSems0_none]
    refine (hout1 (E3 m) c).trans ?_
    unfold Pipeline.ΦA
    iintro ⟨Hr, Hp⟩
    isplitl [Hp]; · iexact Hp
    isplitr; · iempintro
    iexact Hr
  hexit c := by
    have hjoin := ub_of_arrays1 (F := F) c (E3 m) (fun b => W4 m c b) ((pdats m 1 c).arrAt · cfg1.N)
      (((dat1 (E3 m) c).arrAt_in 0 rfl _).trans ((A_eq1 (E3 m) c 0).trans (W4_of_ne m c main_arg0 (by decide)).symm))
      (((dat1 (E3 m) c).arrAt_in 1 rfl _).trans ((A_eq1 (E3 m) c 1).trans (W4_of_ne m c main_arg0 (by decide)).symm))
      (((dat1 (E3 m) c).arrAt_in 2 rfl _).trans ((A_eq1 (E3 m) c 2).trans (W4_of_ne m c main_v5 (by decide)).symm))
      (((dat1 (E3 m) c).arrAt_in 3 rfl _).trans ((A_eq1 (E3 m) c 3).trans (W4_of_ne m c main_arg2 (by decide)).symm))
      (W4_v6 m c).symm
      (fun b hb => W4_of_ne m c b (fun e => hb (by rw [e, arrImage1]; decide)))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs (c : Dev nD) : List (Seg (pcfgs (F := F)) adm (pdats m) () defs₀ 𝒱₀ Lv lv) :=
  [.host (Gen.seg0 m 𝒱₀ Lv lv Er), .host (Gen.seg1 m 𝒱₀ Lv lv Er), .region (reg0 m), .region (reg1 m)]

set_option backward.isDefEq.respectTransparency.types false in
/-- THE RUN: from any memory with zero counters every weakly fair execution of @main terminates, nothing faulting;
    in every final state the result buffer holds what region 1's write-backs leave and the arguments are as launched. -/
theorem run : θ_run defs (onTc (τ := τ) (main (F := F))) ⟨m, fun _ => 0, ρ⟩ (fun r => ∀ c : Dev nD,
      r.2.mem ((c.tc : Thread nD τ).loc main_v6) = (dat1 (E3 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_dev (pcfgs (F := F)) adm (pdats m) () cellOf_inj emb₁ defs₀ 𝒱₀ Lv lv m ρ main
    (segs m)
    (fun c Q => by
      rewrite [main_chain c, Seg.run_eq_chain,
        show (segs m c).map Seg.prog = [
          StableHlo.seq hostOps0,
          StableHlo.seq hostOps0_1,
          Prog.lift (.customCall (Pipeline.entry 0) ()),
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c)) (Tₙ := Tn m)
    (hch := fun c => ⟨.rfl, .rfl, .rfl, .rfl, .rfl⟩)
    (hinit := by
      refine Pipeline.initEach Lv lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v6 (by decide))).trans (W4_v6 m c),
       (h c _ (mem_uc main_arg0 (by decide))).trans (W4_arg m c main_arg0 (by decide) (by decide) (by decide) (by decide)),
       (h c _ (mem_uc main_arg1 (by decide))).trans (W4_arg m c main_arg1 (by decide) (by decide) (by decide) (by decide)),
       (h c _ (mem_uc main_arg2 (by decide))).trans (W4_arg m c main_arg2 (by decide) (by decide) (by decide) (by decide))⟩)

/-- The frame claim's post follows: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run m ρ)

end Cert.KernelIdeal.Hand

end
-- ==== Proof.BitsR0.lean ====
/-
  The first kernel region (the averaged outer product), at any float instance and at any contents `V` of the
  TensorCore's buffers when the region is entered.  Its grid is 8 × 8; at point (i, j) the body loads the two
  64 × 512 column blocks i and j of the normalised rows (both windows read the SAME array), multiplies the
  first's transpose by the second, scales by 2⁻⁶ and stores the 512 × 512 result whole into the output block (i, j).
  Stated here: what each window's staging buffer holds after the body at a point (`dat0`), and that the body,
  run from the input blocks, leaves exactly that (`body_obligation0`).
-/
import proofs.«148084_j73916387164402_1_alg».proof.Proof.Gen.Kernel.Launch
import proofs.«148084_j73916387164402_1_alg».proof.Proof.Gen.Kernel.Skeleton
import proofs.«148084_j73916387164402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 64 × 512 input buffer and the whole 512 × 512 output buffer, as rectangles at the origin. -/
abbrev rIn0 : Rect S64x512 := Rect.unit (s := S64x512) ![0, 0] S64x512.size inb_S64x512_S64x512_0_0
abbrev rOut0 : Rect S512x512 := Rect.unit (s := S512x512) ![0, 0] S512x512.size inb_S512x512_S512x512_0_0

/-- The output window's staging buffer after the body, from the two input blocks: its one store. -/
def out0_2 (x0 x1 : Vec F S64x512 .f32) : Vec F S512x512 .bf16 :=
  View.canon [⟨rOut0, k0_pay1 (View.ld x0 rIn0) (View.ld x1 rIn0)⟩]

/-- The proof data of the first region on core `c`: the arrays as the region finds them; after the body each input
    buffer at its block and the output buffer at `out0_2` of the two input blocks; the two input windows share
    their one array, each holding half of it; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The input windows' buffers when the body runs -/

/-- The first input's current buffer holds its block at every point, fetched there or not: the body leaves the
    block in place, the window is not cut and never idle, so an unfetched point finds the block of the point
    before, whose index is the same. -/
theorem before0_0 (c : Dev nD) (t : Fin cfg0.N) (d) : (dat0 V c).before 0 t d = iblk0 V c 0 t :=
  (Dat.before_in_eq_fetched (dat0 V c) 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The same for the second input, which reads the same array at the block of the other grid coordinate. -/
theorem before0_1 (c : Dev nD) (t : Fin cfg0.N) (d) : (dat0 V c).before 1 t d = iblk0 V c 1 t :=
  (Dat.before_in_eq_fetched (dat0 V c) 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The output's one store covers its buffer -/

/-- The store's rectangle is the whole 512 × 512 buffer, so every index of the buffer lies in it. -/
theorem cover0_2 (p : Vec F S512x512 .bf16) (y : S512x512.Idx) :
    ∃ pc ∈ ([⟨rOut0, p⟩] : List (View.Piece (Elt F) S512x512 .bf16)), y ∈ pc.1.set :=
  View.cover_of_tiled [⟨rOut0, p⟩] S512x512.size (by rfl) y

/-! ## The body's triple -/

set_option maxHeartbeats 1000000 in
/-- On whole buffers, the two inputs' at contents `x0`, `x1` and the output's at anything, the body runs to its
    continuation with the inputs' as they were and the output's at `out0_2 x0 x1`: two loads of the inputs, a load
    of the output nobody reads, and one store of the whole output. -/
theorem sound_kernel0 (c : Dev nD) (E : Set ℕ) (i : grid0.Coords)
    (arg2 : Memref sig .tc .vmem S64x512 .f32) (harg2 : arg2.IsWhole)
    (arg3 : Memref sig .tc .vmem S64x512 .f32) (harg3 : arg3.IsWhole)
    (arg4 : Memref sig .tc .vmem S512x512 .bf16) (harg4 : arg4.IsWhole)
    (x0 x1 : Vec F S64x512 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__outer_kernel i arg2 harg2 arg3 harg3 arg4 harg4) K := by
  simp only [cc0__outer_kernel_eq_skeleton]; unfold cc0__outer_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`: the invariant, what the core owes, and each window's current
    buffer at what it then holds; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two inputs' buffers hold their blocks, so the body's triple applies at those
    blocks; the invariant and what the core owes do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsR1Runs.lean ====
/-
  The second kernel region (the blocked matrix product with its closing step), the part its three cases share.
  The grid is 4 × 4 × 8; the last coordinate k walks the eight stretches of 512 columns of the contracted axis.
  The body keeps a 1024 × 1024 running total in a scratch buffer that lives across grid points: at k = 0 it first
  stores zeros there; at every k it adds the product of the current 1024 × 512 block of W and 512 × 1024 block of
  the outer product; at k = 7 it also stores `W − α · total − lr · G` into the output block.  So a point is in one of
  three cases — A: k = 0; B: 0 < k < 7; C: k = 7 — and the output window is written, and flushed, only in case C.
  Here: the two branch conditions in closed form over the grid, where the output window is idle, the staging and
  scratch memrefs by name, and for each case the body's run on whole buffers, with the pieces its stores leave in
  the scratch (and, in case C, in the output buffer) as the witness.
-/
import proofs.«148084_j73916387164402_1_alg».proof.Proof.Gen.Kernel.Launch
import proofs.«148084_j73916387164402_1_alg».proof.Proof.Gen.Kernel.Skeleton
import proofs.«148084_j73916387164402_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- `k = 0`, as the body computes it from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- `k = 7`, as the body computes it. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last stretch the output window is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- On the last stretch it is live. -/
theorem liveAt1_4 : ∀ t : Fin cfg1.N, cond1_1 (grid1.coords t) → cfg1.idle 4 (grid1.coords t) = false := by decide +kernel

/-! ## The memrefs by name -/

/-- One staging buffer of the output window, through which its contents are stated. -/
abbrev VO1_4 : View sig .tc .vmem S1024x1024 .f32 := (Memref.whole cc1_stg4_0 : Memref sig .tc .vmem S1024x1024 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
/-- The scratch that carries the running total between points, and the view its contents are stated through. -/
abbrev scM1_0 : Memref sig .tc .vmem S1024x1024 .f32 := Memref.whole cc1_scratch0
abbrev VS1_0 : View sig .tc .vmem S1024x1024 .f32 := scM1_0.view

/-- The scoped buffers of this core that the second region neither stages nor carries: the first region's six
    staging buffers, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- Seven conjuncts with the last moved to the front, the other six kept in order and grouped after it. -/
theorem sep_last_first7 {M : Type} [URA M] (A1 A2 A3 A4 A5 A6 S : sProp M) :
    iprop(A1 ∗ A2 ∗ A3 ∗ A4 ∗ A5 ∗ A6 ∗ S) = iprop(S ∗ (A1 ∗ A2 ∗ A3 ∗ A4 ∗ A5 ∗ A6)) := by
  have h₁ : iprop(A1 ∗ A2 ∗ A3 ∗ A4 ∗ A5 ∗ A6 ∗ S) ⊢ iprop(S ∗ (A1 ∗ A2 ∗ A3 ∗ A4 ∗ A5 ∗ A6)) := by
    iintro ⟨H1, H2, H3, H4, H5, H6, HS⟩
    isplitl [HS]; · iexact HS
    isplitl [H1]; · iexact H1
    isplitl [H2]; · iexact H2
    isplitl [H3]; · iexact H3
    isplitl [H4]; · iexact H4
    isplitl [H5]; · iexact H5
    iexact H6
  have h₂ : iprop(S ∗ (A1 ∗ A2 ∗ A3 ∗ A4 ∗ A5 ∗ A6)) ⊢ iprop(A1 ∗ A2 ∗ A3 ∗ A4 ∗ A5 ∗ A6 ∗ S) := by
    iintro ⟨HS, H1, H2, H3, H4, H5, H6⟩
    isplitl [H1]; · iexact H1
    isplitl [H2]; · iexact H2
    isplitl [H3]; · iexact H3
    isplitl [H4]; · iexact H4
    isplitl [H5]; · iexact H5
    isplitl [H6]; · iexact H6
    iexact HS
  exact BI.equiv_iff.mp ⟨h₁, h₂⟩

/-- The region's invariant as the launch hands it over: the scratch at some contents, the scoped rest, and the
    generator register at some state. -/
theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA; rw [scopedRest1_eq]; simp only [scM1_0, owns_whole]
  unfold rest1
  rw [sep_last_first7]
  rfl

/-! ## The body's run, case by case -/

set_option maxHeartbeats 1000000 in
/-- CASE A (`k = 0`): the scratch at anything; the output buffer handed back untouched. -/
noncomputable def kernelRun1_A (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x512 .f32) (x1 : Vec F S1024x1024 .f32) (x2 : Vec F S512x1024 .bf16) (x3 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__mm_kernel i arg3 harg3 arg4 harg4 arg5 harg5 arg6 harg6 arg7 harg7 arg8 harg8) K } := by
  refine ⟨[], ?_, fun xi4 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

set_option maxHeartbeats 1000000 in
/-- CASE B (`0 < k < 7`): the scratch at what the point before left; the output buffer handed back untouched. -/
noncomputable def kernelRun1_B (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x512 .f32) (x1 : Vec F S1024x1024 .f32) (x2 : Vec F S512x1024 .bf16) (x3 : Vec F S1024x1024 .f32) (xs0 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__mm_kernel i arg3 harg3 arg4 harg4 arg5 harg5 arg6 harg6 arg7 harg7 arg8 harg8) K } := by
  refine ⟨[], ?_, fun xi4 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

set_option maxHeartbeats 1000000 in
/-- CASE C (`k = 7`): the scratch at what the point before left; the output buffer at anything, stored whole. -/
noncomputable def kernelRun1_C (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x512 .f32) (x1 : Vec F S1024x1024 .f32) (x2 : Vec F S512x1024 .bf16) (x3 : Vec F S1024x1024 .f32) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__mm_kernel i arg3 harg3 arg4 harg4 arg5 harg5 arg6 harg6 arg7 harg7 arg8 harg8) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2
    obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Hand

end
-- ==== Proof.BitsR1.lean ====
/-
  The second kernel region's proof data, at any float instance and at any contents `V` of the TensorCore's buffers
  when the region is entered.  What the output window's staging buffer and the scratch hold after the body at the
  n-th grid point is defined by recursion on n: the case the point is in (k = 0, 0 < k < 7, k = 7), run at the
  point's input blocks, and in the two later cases on what the point before left in the scratch.  The region's
  invariant before point n + 1 is the scratch at what point n left in it; before the first point, anything.
  The output window is written, and flushed, only at k = 7; elsewhere it is idle and handed back untouched.
-/
import proofs.«148084_j73916387164402_1_alg».proof.Proof.Gen.Kernel.Launch
import proofs.«148084_j73916387164402_1_alg».proof.Proof.Gen.Kernel.Skeleton
import proofs.«148084_j73916387164402_1_alg».proof.Proof.Gen.Kernel.Points
import proofs.«148084_j73916387164402_1_alg».proof.Proof.BitsR1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What each case leaves in the output buffer and in the scratch: its pieces read back -/

def out1_A_4 (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i) (x0 : Vec F S1024x512 .f32) (x1 : Vec F S1024x1024 .f32) (x2 : Vec F S512x1024 .bf16) (x3 : Vec F S1024x1024 .f32) : Vec F S1024x1024 .f32 :=
  VO1_4.read (Elt F) (VO1_4.writes (Elt F) VO1_4.junk (kernelRun1_A c i arg3 harg3 arg4 harg4 arg5 harg5 arg6 harg6 arg7 harg7 arg8 harg8 hc0 hc1 x0 x1 x2 x3).1)
def sout1_A_0 (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i) (x0 : Vec F S1024x512 .f32) (x1 : Vec F S1024x1024 .f32) (x2 : Vec F S512x1024 .bf16) (x3 : Vec F S1024x1024 .f32) : Vec F S1024x1024 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)
def out1_B_4 (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i) (x0 : Vec F S1024x512 .f32) (x1 : Vec F S1024x1024 .f32) (x2 : Vec F S512x1024 .bf16) (x3 : Vec F S1024x1024 .f32) (xs0 : Vec F S1024x1024 .f32) : Vec F S1024x1024 .f32 :=
  VO1_4.read (Elt F) (VO1_4.writes (Elt F) VO1_4.junk (kernelRun1_B c i arg3 harg3 arg4 harg4 arg5 harg5 arg6 harg6 arg7 harg7 arg8 harg8 hc0 hc1 x0 x1 x2 x3 xs0).1)
def sout1_B_0 (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i) (x0 : Vec F S1024x512 .f32) (x1 : Vec F S1024x1024 .f32) (x2 : Vec F S512x1024 .bf16) (x3 : Vec F S1024x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)
def out1_C_4 (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i) (x0 : Vec F S1024x512 .f32) (x1 : Vec F S1024x1024 .f32) (x2 : Vec F S512x1024 .bf16) (x3 : Vec F S1024x1024 .f32) (xs0 : Vec F S1024x1024 .f32) : Vec F S1024x1024 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)
def sout1_C_0 (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i) (x0 : Vec F S1024x512 .f32) (x1 : Vec F S1024x1024 .f32) (x2 : Vec F S512x1024 .bf16) (x3 : Vec F S1024x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

/-! ## Point by point -/

/-- What the body leaves at point `t` in (the output buffer, the scratch), given what the scratch held before it
    (`prev`; case A does not look at it). -/
def pointOut1 (c : Dev nD) (t : Fin cfg1.N) (prev : Vec F S1024x1024 .f32) : Vec F S1024x1024 .f32 × Vec F S1024x1024 .f32 :=
  if h0 : t.val % 8 = 0 then
    (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => by have := (hcond1_1 t).mp h; omega) (iblk1 V c 0 t) (iblk1 V c 1 t) (iblk1 V c 2 t) (iblk1 V c 3 t),
     sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => by have := (hcond1_1 t).mp h; omega) (iblk1 V c 0 t) (iblk1 V c 1 t) (iblk1 V c 2 t) (iblk1 V c 3 t))
  else if h1 : t.val % 8 = 7 then
    (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) prev,
     sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) prev)
  else
    (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) prev,
     sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) prev)

/-- THE ACCUMULATION: (output buffer, scratch) after the body at position `n`. -/
def outsAt1 (c : Dev nD) : (n : ℕ) → n < cfg1.N → Vec F S1024x1024 .f32 × Vec F S1024x1024 .f32
  | 0, hn => pointOut1 V c ⟨0, hn⟩ (VS1_0.read (Elt F) VS1_0.junk)
  | n + 1, hn => pointOut1 V c ⟨n + 1, hn⟩ (outsAt1 c n (Nat.lt_of_succ_lt hn)).2

/-- At any point after the first, `outsAt1` is the point's step over what the point before left in the scratch. -/
theorem outsAt1_pos (c : Dev nD) (t : Fin cfg1.N) (ht : t.val ≠ 0) :
    outsAt1 V c t.val t.isLt = pointOut1 V c t (outsAt1 V c (t.val - 1) (Nat.lt_of_le_of_lt (Nat.sub_le _ _) t.isLt)).2 := by
  obtain ⟨n, hn⟩ := t
  cases n with
  | zero => exact absurd rfl ht
  | succ n => rfl

/-- At a point with `k = 0` it is case A's step (which does not read the scratch). -/
theorem outsAt1_zero (c : Dev nD) (t : Fin cfg1.N) (h0 : t.val % 8 = 0) (prev : Vec F S1024x1024 .f32) :
    outsAt1 V c t.val t.isLt = pointOut1 V c t prev := by
  have key : ∀ p q : Vec F S1024x1024 .f32, pointOut1 V c t p = pointOut1 V c t q := by
    intro p q; unfold pointOut1; rw [dif_pos h0, dif_pos h0]
  obtain ⟨n, hn⟩ := t
  cases n with
  | zero => exact key _ _
  | succ n => exact key _ _

/-! ## The invariant: the scratch carried between points -/

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ rest1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

/-! ## The proof data -/

/-- The proof data of the second region on core `c`: the arrays as the region finds them; after the body each input
    buffer at its block and the output buffer at `outsAt1`'s first component; the invariant `PhiS1`; the two input
    windows on `W` share that one array, each holding half of it; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-! ## Each case's pieces cover the buffer they are stored into -/

/-- Case A's pieces for the scratch cover it. -/
theorem scover1_A_0 (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i) (x0 : Vec F S1024x512 .f32) (x1 : Vec F S1024x1024 .f32) (x2 : Vec F S512x1024 .bf16) (x3 : Vec F S1024x1024 .f32) (y : S1024x1024.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1024x1024.size (by sl_kernel_rfl) y

/-- Case B's pieces for the scratch cover it. -/
theorem scover1_B_0 (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i) (x0 : Vec F S1024x512 .f32) (x1 : Vec F S1024x1024 .f32) (x2 : Vec F S512x1024 .bf16) (x3 : Vec F S1024x1024 .f32) (xs0 : Vec F S1024x1024 .f32) (y : S1024x1024.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S1024x1024.size (by sl_kernel_rfl) y

/-- Case C's pieces for the scratch cover it, -/
theorem scover1_C_0 (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i) (x0 : Vec F S1024x512 .f32) (x1 : Vec F S1024x1024 .f32) (x2 : Vec F S512x1024 .bf16) (x3 : Vec F S1024x1024 .f32) (xs0 : Vec F S1024x1024 .f32) (y : S1024x1024.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x1024.size (by sl_kernel_rfl) y

/-- and its pieces for the output buffer cover that. -/
theorem cover1_C_4 (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i) (x0 : Vec F S1024x512 .f32) (x1 : Vec F S1024x1024 .f32) (x2 : Vec F S512x1024 .bf16) (x3 : Vec F S1024x1024 .f32) (xs0 : Vec F S1024x1024 .f32) (y : S1024x1024.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1024x1024.size (by sl_kernel_rfl) y

/-! ## `outsAt1` case by case -/

/-- At a point with `k = 0`: case A's contents. -/
theorem outsAt1_A (c : Dev nD) (t : Fin cfg1.N) (h0 : t.val % 8 = 0) (hc0 : cond1_0 (grid1.coords t)) (hc1 : ¬cond1_1 (grid1.coords t)) :
    outsAt1 V c t.val t.isLt
      = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t),
         sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t)) := by
  rw [outsAt1_zero V c t h0 (VS1_0.read (Elt F) VS1_0.junk)]
  unfold pointOut1
  rw [dif_pos h0]

/-- At a point with `0 < k < 7`: case B's contents, over what the point before left in the scratch. -/
theorem outsAt1_B (c : Dev nD) (t : Fin cfg1.N) (h0 : ¬t.val % 8 = 0) (h1 : ¬t.val % 8 = 7) (hc0 : ¬cond1_0 (grid1.coords t)) (hc1 : ¬cond1_1 (grid1.coords t)) :
    outsAt1 V c t.val t.isLt
      = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2,
         sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2) := by
  rw [outsAt1_pos V c t (fun hz => h0 (by omega))]
  unfold pointOut1
  rw [dif_neg h0, dif_neg h1]

/-- At a point with `k = 7`: case C's contents, over what the point before left in the scratch. -/
theorem outsAt1_C (c : Dev nD) (t : Fin cfg1.N) (h0 : ¬t.val % 8 = 0) (h1 : t.val % 8 = 7) (hc0 : ¬cond1_0 (grid1.coords t)) (hc1 : cond1_1 (grid1.coords t)) :
    outsAt1 V c t.val t.isLt
      = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2,
         sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2) := by
  rw [outsAt1_pos V c t (fun hz => h0 (by omega))]
  unfold pointOut1
  rw [dif_neg h0, dif_pos h1]

/-! ## What the body finds in the windows' buffers, and what it leaves there -/

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-- An input window is live everywhere: the body leaves its buffer at its block. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]
/-- The output window where it is live: its buffer at `outsAt1`'s first component. -/
theorem leaves1_4_live (c : Dev nD) (t : Fin cfg1.N) (hc1 : cond1_1 (grid1.coords t)) :
    (dat1 V c).leavesExact 4 t = owns (c : Thread nD τ) (ms1_4 t) fullShare (outsAt1 V c t.val t.isLt).1 := by
  unfold Dat.leavesExact; rw [liveAt1_4 t hc1, after1_4]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at a point with `k = 0`: the inputs' buffers hold their blocks; the invariant hands over the scratch at
    anything (at the first point as the launch left it, later at what the point before left, which is forgotten);
    the run of case A applies; the scratch comes back at this point's contents, since the case's pieces cover it; the
    output window is idle and its buffer comes back as it was found. -/
theorem sound_body1_A (c : Dev nD) (t : Fin cfg1.N) (h0 : t.val % 8 = 0) :
    bodyPre1 V c t ⊢ wp frame (wpE (defs₀ (F := F)) Variants.none c none) Set.univ (bodyAt1 t) (fun _ => bodyPost1 V c t) := by
  have hc0 : cond1_0 (grid1.coords t) := (hcond1_0 t).mpr h0
  have hc1 : ¬cond1_1 (grid1.coords t) := fun h => by have := (hcond1_1 t).mp h; omega
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  rw [Dat.leavesExact_idle (dat1 V c) 4 t (idleAt1_4 t hc1) (noFlush1_4 t hc1)]
  rw [outsAt1_A V c t h0 hc0 hc1]
  unfold sout1_A_0; dsimp only
  by_cases hz : t.val = 0
  · rw [PhiS1_castSucc V c t, PhiS1_zero V c _ _ hz, PhiA1_eq]
    iintro ⟨⟨⟨HS0, Hr⟩, Hg⟩, Ho, ⟨%d0, H0⟩, ⟨%d1, H1⟩, ⟨%d2, H2⟩, ⟨%d3, H3⟩, ⟨%d4, H4⟩⟩
    iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t)).2.2 ((dat1 V c).before 4 t d4) Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t))
        iexact Hr
      iexact Hg
    isplitl [Ho]; · iexact Ho
    isplitl [H0]; · iexact H0
    isplitl [H1]; · iexact H1
    isplitl [H2]; · iexact H2
    isplitl [H3]; · iexact H3
    iexists _; iexact H4
  · rw [PhiS1_castSucc V c t, PhiS1_pos V c _ _ hz]
    iintro ⟨⟨⟨HS0, Hr⟩, Hg⟩, Ho, ⟨%d0, H0⟩, ⟨%d1, H1⟩, ⟨%d2, H2⟩, ⟨%d3, H3⟩, ⟨%d4, H4⟩⟩
    iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t)).2.2 ((dat1 V c).before 4 t d4) Set.univ _)
    isplitl [H0]; · iexact H0
    isplitl [H1]; · iexact H1
    isplitl [H2]; · iexact H2
    isplitl [H3]; · iexact H3
    isplitl [H4]; · iexact H4
    isplitl [HS0]; · iexists _; iexact HS0
    iintro ⟨H0, H1, H2, H3, H4, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t))
        iexact Hr
      iexact Hg
    isplitl [Ho]; · iexact Ho
    isplitl [H0]; · iexact H0
    isplitl [H1]; · iexact H1
    isplitl [H2]; · iexact H2
    isplitl [H3]; · iexact H3
    iexists _; iexact H4

set_option maxHeartbeats 4800000 in
/-- The body at a point with `0 < k < 7`: the invariant hands over the scratch at what the point before left; the
    run of case B applies; the scratch comes back at this point's contents; the output window is idle and its buffer
    comes back as it was found. -/
theorem sound_body1_B (c : Dev nD) (t : Fin cfg1.N) (h0 : ¬t.val % 8 = 0) (h1 : ¬t.val % 8 = 7) :
    bodyPre1 V c t ⊢ wp frame (wpE (defs₀ (F := F)) Variants.none c none) Set.univ (bodyAt1 t) (fun _ => bodyPost1 V c t) := by
  have hc0 : ¬cond1_0 (grid1.coords t) := fun h => h0 ((hcond1_0 t).mp h)
  have hc1 : ¬cond1_1 (grid1.coords t) := fun h => h1 ((hcond1_1 t).mp h)
  have hz : t.val ≠ 0 := fun hz => h0 (by omega)
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  rw [Dat.leavesExact_idle (dat1 V c) 4 t (idleAt1_4 t hc1) (noFlush1_4 t hc1)]
  rw [outsAt1_B V c t h0 h1 hc0 hc1]
  unfold sout1_B_0; dsimp only
  rw [PhiS1_castSucc V c t, PhiS1_pos V c _ _ hz]
  iintro ⟨⟨⟨HS0, Hr⟩, Hg⟩, Ho, ⟨%d0, H0⟩, ⟨%d1, H1⟩, ⟨%d2, H2⟩, ⟨%d3, H3⟩, ⟨%d4, H4⟩⟩
  iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2).2.2 ((dat1 V c).before 4 t d4) Set.univ _)
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, H4, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2)
      iexact Hr
    iexact Hg
  isplitl [Ho]; · iexact Ho
  isplitl [H0]; · iexact H0
  isplitl [H1]; · iexact H1
  isplitl [H2]; · iexact H2
  isplitl [H3]; · iexact H3
  iexists _; iexact H4

set_option maxHeartbeats 4800000 in
/-- The body at a point with `k = 7`: the invariant hands over the scratch at what the point before left; the output
    window is live, its buffer handed over at anything; the run of case C applies; the scratch and the output buffer
    come back at this point's contents, since the case's pieces cover each. -/
theorem sound_body1_C (c : Dev nD) (t : Fin cfg1.N) (h0 : ¬t.val % 8 = 0) (h1 : t.val % 8 = 7) :
    bodyPre1 V c t ⊢ wp frame (wpE (defs₀ (F := F)) Variants.none c none) Set.univ (bodyAt1 t) (fun _ => bodyPost1 V c t) := by
  have hc0 : ¬cond1_0 (grid1.coords t) := fun h => h0 ((hcond1_0 t).mp h)
  have hc1 : cond1_1 (grid1.coords t) := (hcond1_1 t).mpr h1
  have hz : t.val ≠ 0 := fun hz => h0 (by omega)
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  rw [leaves1_4_live V c t hc1]
  rw [outsAt1_C V c t h0 h1 hc0 hc1]
  unfold out1_C_4 sout1_C_0; dsimp only
  rw [PhiS1_castSucc V c t, PhiS1_pos V c _ _ hz]
  iintro ⟨⟨⟨HS0, Hr⟩, Hg⟩, Ho, ⟨%d0, H0⟩, ⟨%d1, H1⟩, ⟨%d2, H2⟩, ⟨%d3, H3⟩, ⟨%d4, H4⟩⟩
  iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2)
      iexact Hr
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2)

/-- The body at any point: the closed forms say which case the point is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 8 = 0
  · exact sound_body1_A V c t h0
  · by_cases h1 : t.val % 8 = 7
    · exact sound_body1_C V c t h0 h1
    · exact sound_body1_B V c t h0 h1

/-- The body obligation of the second region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 :=
  Entails.of_eq (PhiS1_zero V c 0 (Nat.zero_le _) rfl).symm

/-- After any point the invariant gives it back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- After the last point the invariant gives it back: the scratch's named contents are forgotten. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.BitsLaunch.lean ====
/-
  The whole program, run from the launch to the return, at any float instance.  @main is four items in order: the
  five host operations of the row norm, the five that normalise the rows, the first kernel region and the second.
  Between items a core's unscoped buffers are held whole at named contents: as launched; after each host stretch at
  what its operations compute; after the first region with its output array at what its write-backs leave; after the
  second likewise.  Each region takes its windows' arrays out of those buffers on entry and puts them back on exit.
  In both regions TWO input windows read ONE array, so that array's buffer is dealt between them in two half shares
  on entry and made whole again on exit; an input window never writes, so both halves come back as they went in.
  The run's end state is read against the last contents: the result buffer holds what the second region's
  write-backs leave, and no item writes an argument, so the three arguments end as launched.
-/
import proofs.«148084_j73916387164402_1_alg».proof.Proof.BitsR0
import proofs.«148084_j73916387164402_1_alg».proof.Proof.BitsR1
import proofs.«148084_j73916387164402_1_alg».proof.Proof.Gen.Kernel.Regions
import Idealize.ShloMosaic.Lib.Pipeline.Frame
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's unscoped buffers when region 0 is entered, read at a TensorCore reference. -/
abbrev E2 (c : Dev nD) (b : Ref sig .tc) : Buf (Elt F) ((c : Thread nD τ).loc b) := Gen.V2 m c b
/-- After region 0: its output array at what its write-backs leave, everything else as entered. -/
def W3 (c : Dev nD) : Valuation τ sig (Elt F) :=
  Function.update (Gen.V2 m c) main_v5 ((dat0 (E2 m) c).arrAt 2 cfg0.N)
abbrev E3 (c : Dev nD) (b : Ref sig .tc) : Buf (Elt F) ((c : Thread nD τ).loc b) := W3 m c b
/-- After region 1. -/
def W4 (c : Dev nD) : Valuation τ sig (Elt F) :=
  Function.update (W3 m c) main_v6 ((dat1 (E3 m) c).arrAt 4 cfg1.N)

theorem W3_v5 (c : Dev nD) : W3 m c main_v5 = (dat0 (E2 m) c).arrAt 2 cfg0.N := by
  unfold W3; exact Function.update_self ..
theorem W4_v6 (c : Dev nD) : W4 m c main_v6 = (dat1 (E3 m) c).arrAt 4 cfg1.N := by
  unfold W4; exact Function.update_self ..

/-- The arrays' buffers of region 0, enumerated. -/
theorem arrImage0 : Finset.univ.image (Pipeline.arrRef spec0) = {main_v4, main_v5} := by decide

theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v4) ↦{fullShare} V main_v4) ∗ (((c : Thread nD τ).loc main_v5) ↦{fullShare} V main_v5)) := by
  unfold Pipeline.arrBufs
  rw [arrImage0, BI.bigSep_insert (by decide), BI.bigSep_singleton]
  rfl

/-- Region 0's windowed arrays at the proof data's shares: the two input windows each hold half of the one array they read. -/
theorem arrays0_eq (c : Dev nD) (V : (c : Dev nD) → (b : Ref sig .tc) → Buf (Elt F) ((c : Thread nD τ).loc b))
    (Fn : (w : Fin cfg0.W) → Buf (Elt F) ((cfg0.win w).arr.view.loc (c.tc : Thread nD τ))) :
    ((dat0 V c).arrays Fn : sProp 𝕄)
      = iprop((((c : Thread nD τ).loc main_v4) ↦{fullShare.left} Fn 0) ∗ (((c : Thread nD τ).loc main_v4) ↦{fullShare.right} Fn 1)
          ∗ (((c : Thread nD τ).loc main_v5) ↦{fullShare} Fn 2)) := by
  unfold Dat.arrays
  rw [bigSep_W0, (arr_whole0 0).set_eq_univ, (arr_whole0 2).set_eq_univ]
  rfl

/-- ENTRY of region 0: the core's unscoped buffers are the region's arrays at its entry contents — the array the two
    input windows read split in two halves — and the rest. -/
theorem arrays_of_ub0 (c : Dev nD) (V : (c : Dev nD) → (b : Ref sig .tc) → Buf (Elt F) ((c : Thread nD τ).loc b)) :
    (unscopedBufs (Ix := Unit) (Name := ℕ) (U := UR sig nD τ) (Lvl := ℕ) c (V c) : sProp 𝕄)
      ⊢ iprop((dat0 V c).arrays ((dat0 V c).arrAt · 0) ∗ Pipeline.unscopedRest spec0 c (V c)) := by
  rw [Pipeline.unscopedBufs_split₀ cfgs (0 : Fin 2) winFacts₀0.arr_unscoped c (V c)]
  show (iprop(Pipeline.arrBufs spec0 c (V c) ∗ Pipeline.unscopedRest spec0 c (V c)) : sProp 𝕄) ⊢ _
  rw [arrBufs0_eq, arrays0_eq]
  iintro ⟨⟨Hx, Hy⟩, Hr⟩
  ihave Hx := (pointsTo_share (PosShare.mem_left_op_right fullShare)).1 $$ Hx
  icases Hx with ⟨Ha, Hb⟩
  isplitr [Hr]
  · isplitl [Ha]; · iexact Ha
    isplitl [Hb]; · iexact Hb
    iexact Hy
  · iexact Hr

/-- EXIT of region 0: its arrays at contents `Fn` and the rest at `V c` are the core's unscoped buffers at any
    valuation `V'` that has the arrays at `Fn` and agrees with `V c` off them; the two halves of the shared array rejoin. -/
theorem ub_of_arrays0 (c : Dev nD) (V : (c : Dev nD) → (b : Ref sig .tc) → Buf (Elt F) ((c : Thread nD τ).loc b))
    (V' : (b : Ref sig .tc) → Buf (Elt F) ((c : Thread nD τ).loc b))
    (Fn : (w : Fin cfg0.W) → Buf (Elt F) ((cfg0.win w).arr.view.loc (c.tc : Thread nD τ)))
    (h0 : Fn 0 = V' main_v4) (h1 : Fn 1 = V' main_v4) (h2 : Fn 2 = V' main_v5)
    (hrest : ∀ b, b ∉ Finset.univ.image (Pipeline.arrRef spec0) → V' b = V c b) :
    iprop((dat0 V c).arrays Fn ∗ Pipeline.unscopedRest spec0 c (V c))
      ⊢ (unscopedBufs (Ix := Unit) (Name := ℕ) (U := UR sig nD τ) (Lvl := ℕ) c V' : sProp 𝕄) := by
  rw [Pipeline.unscopedBufs_split₀ cfgs (0 : Fin 2) winFacts₀0.arr_unscoped c V']
  show _ ⊢ (iprop(Pipeline.arrBufs spec0 c V' ∗ Pipeline.unscopedRest spec0 c V') : sProp 𝕄)
  rw [arrBufs0_eq, arrays0_eq, h0, h1, h2]
  have hr : (Pipeline.unscopedRest (Ix := Unit) (Name := ℕ) (U := UR sig nD τ) (Lvl := ℕ) spec0 c (V c) : sProp 𝕄)
      = Pipeline.unscopedRest spec0 c V' := by
    unfold Pipeline.unscopedRest
    exact bigSep_congr fun b hb => by rw [hrest b (Finset.mem_sdiff.mp hb).2]
  rw [hr]
  iintro ⟨⟨Ha, Hb, H5⟩, Hr⟩
  isplitr [Hr]
  · isplitr [H5]
    · iapply (pointsTo_share (PosShare.mem_left_op_right fullShare)).2
      isplitl [Ha]; · iexact Ha
      iexact Hb
    · iexact H5
  · iexact Hr

/-! ## Region 1's arrays: the two windows on `W` share it -/

theorem arrImage1 : Finset.univ.image (Pipeline.arrRef spec1) = {main_arg0, main_v5, main_arg2, main_v6} := by decide

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v5) ↦{fullShare} V main_v5)
          ∗ (((c : Thread nD τ).loc main_arg2) ↦{fullShare} V main_arg2) ∗ (((c : Thread nD τ).loc main_v6) ↦{fullShare} V main_v6)) := by
  unfold Pipeline.arrBufs
  rw [arrImage1, BI.bigSep_insert (by decide), BI.bigSep_insert (by decide), BI.bigSep_insert (by decide), BI.bigSep_singleton]
  rfl

theorem arrays1_eq (c : Dev nD) (V : (c : Dev nD) → (b : Ref sig .tc) → Buf (Elt F) ((c : Thread nD τ).loc b))
    (Fn : (w : Fin cfg1.W) → Buf (Elt F) ((cfg1.win w).arr.view.loc (c.tc : Thread nD τ))) :
    ((dat1 V c).arrays Fn : sProp 𝕄)
      = iprop((((c : Thread nD τ).loc main_arg0) ↦{fullShare.left} Fn 0) ∗ (((c : Thread nD τ).loc main_arg0) ↦{fullShare.right} Fn 1)
          ∗ (((c : Thread nD τ).loc main_v5) ↦{fullShare} Fn 2) ∗ (((c : Thread nD τ).loc main_arg2) ↦{fullShare} Fn 3)
          ∗ (((c : Thread nD τ).loc main_v6) ↦{fullShare} Fn 4)) := by
  unfold Dat.arrays
  rw [bigSep_W1, (arr_whole1 0).set_eq_univ, (arr_whole1 2).set_eq_univ, (arr_whole1 3).set_eq_univ, (arr_whole1 4).set_eq_univ]
  rfl

theorem arrays_of_ub1 (c : Dev nD) (V : (c : Dev nD) → (b : Ref sig .tc) → Buf (Elt F) ((c : Thread nD τ).loc b)) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [Pipeline.unscopedBufs_split₀ cfgs (1 : Fin 2) winFacts₀1.arr_unscoped c (V c)]
  show (iprop(Pipeline.arrBufs spec1 c (V c) ∗ Pipeline.unscopedRest spec1 c (V c)) : sProp 𝕄) ⊢ _
  rw [arrBufs1_eq, arrays1_eq]
  iintro ⟨⟨Hw, Ho, Hg, Hz⟩, Hr⟩
  ihave Hw := (pointsTo_share (PosShare.mem_left_op_right fullShare)).1 $$ Hw
  icases Hw with ⟨Ha, Hb⟩
  isplitr [Hr]
  · isplitl [Ha]; · iexact Ha
    isplitl [Hb]; · iexact Hb
    isplitl [Ho]; · iexact Ho
    isplitl [Hg]; · iexact Hg
    iexact Hz
  · iexact Hr

theorem ub_of_arrays1 (c : Dev nD) (V : (c : Dev nD) → (b : Ref sig .tc) → Buf (Elt F) ((c : Thread nD τ).loc b))
    (V' : (b : Ref sig .tc) → Buf (Elt F) ((c : Thread nD τ).loc b))
    (Fn : (w : Fin cfg1.W) → Buf (Elt F) ((cfg1.win w).arr.view.loc (c.tc : Thread nD τ)))
    (h0 : Fn 0 = V' main_arg0) (h1 : Fn 1 = V' main_arg0) (h2 : Fn 2 = V' main_v5) (h3 : Fn 3 = V' main_arg2) (h4 : Fn 4 = V' main_v6)
    (hrest : ∀ b, b ∉ Finset.univ.image (Pipeline.arrRef spec1) → V' b = V c b) :
    iprop((dat1 V c).arrays Fn ∗ Pipeline.unscopedRest spec1 c (V c))
      ⊢ (unscopedBufs (Ix := Unit) (Name := ℕ) (U := UR sig nD τ) (Lvl := ℕ) c V' : sProp 𝕄) := by
  rw [Pipeline.unscopedBufs_split₀ cfgs (1 : Fin 2) winFacts₀1.arr_unscoped c V']
  show _ ⊢ (iprop(Pipeline.arrBufs spec1 c V' ∗ Pipeline.unscopedRest spec1 c V') : sProp 𝕄)
  rw [arrBufs1_eq, arrays1_eq, h0, h1, h2, h3, h4]
  have hr : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by rw [hrest b (Finset.mem_sdiff.mp hb).2]
  rw [hr]
  iintro ⟨⟨Ha, Hb, H5, H2, H6⟩, Hr⟩
  isplitr [Hr]
  · isplitl [Ha Hb]
    · iapply (pointsTo_share (PosShare.mem_left_op_right fullShare)).2
      isplitl [Ha]; · iexact Ha
      iexact Hb
    isplitl [H5]; · iexact H5
    isplitl [H2]; · iexact H2
    iexact H6
  · iexact Hr

/-! ## The proof data family, and what rides beside the buffers -/

/-- The prefetched tables' admissible contents: no pipeline has a table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (cfgs p) c
  | ⟨0, _⟩ => fun c => dat0 (E2 m) c
  | ⟨1, _⟩ => fun c => dat1 (E3 m) c

abbrev 𝒱₀ : Variants := Variants.none
abbrev Lv : GSem nD τ sig → Finset Unit := fun _ => ∅
abbrev lv : GSem nD τ sig → Unit → ℕ := fun _ _ => 0
/-- The core's generator register at some state and its `owes` at nothing ride beside the buffers through every item. -/
abbrev Rr (c : Dev nD) : sProp 𝕄 := iprop((∃ r, prngReg c r) ∗ ∃ W, owes (c : Thread nD τ) (0 : CellTallies nD τ sig Unit) W)
abbrev Er : Fin 3 → Dev nD → sProp 𝕄 := fun _ c => Rr (F := F) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tn (c : Dev nD) : sProp 𝕄 := iprop(StableHlo.held (c : Thread nD τ) (Pipeline.ucRefs τ sig) (W4 m c) ∗ ∃ r, prngReg c r)

/-! ## What the valuations hold off the regions' outputs -/

theorem W3_of_ne (c : Dev nD) (b : Ref sig .tc) (h : b ≠ main_v5) : W3 m c b = Gen.V2 m c b := by
  unfold W3; exact Function.update_of_ne (StableHlo.devRef_ne_of_ne h) ..
theorem W4_of_ne (c : Dev nD) (b : Ref sig .tc) (h : b ≠ main_v6) : W4 m c b = W3 m c b := by
  unfold W4; exact Function.update_of_ne (StableHlo.devRef_ne_of_ne h) ..

theorem W4_arg (c : Dev nD) (b : Ref sig .tc) (h6 : b ≠ main_v6) (h5 : b ≠ main_v5) (h1 : b ∉ hostOps0_1_W) (h0 : b ∉ hostOps0_W) :
    W4 m c b = m ((c : Thread nD τ).loc b) :=
  (W4_of_ne m c b h6).trans <| (W3_of_ne m c b h5).trans <| (Gen.V2_of m c b h1).trans <| (Gen.V1_of m c b h0).trans rfl

/-! ## The two regions as segments -/

set_option backward.isDefEq.respectTransparency.types false in
/-- REGION 0 over the thread state: entered from every unscoped buffer at the contents after the two host stretches,
    left with its output array at what its write-backs leave. -/
def reg0 : Pipeline.RegionSeg (pcfgs (F := F)) adm (pdats m) () defs₀ 𝒱₀ Lv lv 0 where
  win := winFacts₀0
  block_pos := block_pos0
  stage_whole := stage_whole0
  K := PEmpty
  osem k := k.elim
  ho := Pipeline.OwnSemFacts.none _
  hbody c := (body_obligation0 (E2 m) c).loose
  hwaits := Pipeline.hwaits_of_owed_zero _ _ _ _ Lv lv 0 fun _ _ => rfl
  pre c := iprop(StableHlo.held (c : Thread nD τ) (Pipeline.ucRefs τ sig) (Gen.V2 m c) ∗ Rr c)
  post c := iprop(StableHlo.held (c : Thread nD τ) (Pipeline.ucRefs τ sig) (W3 m c) ∗ Rr c)
  X c := iprop(∃ r, prngReg c r)
  Y c := iprop(∃ r, prngReg c r)
  Z c := Pipeline.unscopedRest (Ix := Unit) (Name := ℕ) (U := UR sig nD τ) (Lvl := ℕ) spec0 c (E2 m c)
  hentry c := by
    rw [Pipeline.ownSems0_none]
    have hsplit := arrays_of_ub0 (F := F) c (E2 m)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := ub_of_arrays0 (F := F) c (E2 m) (E3 m c) ((pdats m 0 c).arrAt · cfg0.N)
      (((dat0 (E2 m) c).arrAt_in 0 rfl _).trans ((A_eq0 (E2 m) c 0).trans (W3_of_ne m c main_v4 (by decide)).symm))
      (((dat0 (E2 m) c).arrAt_in 1 rfl _).trans ((A_eq0 (E2 m) c 1).trans (W3_of_ne m c main_v4 (by decide)).symm))
      (W3_v5 m c).symm
      (fun b hb => W3_of_ne m c b (fun e => hb (by rw [e, arrImage0]; decide)))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 1 over the thread state: entered from region 0's exit contents, left with its output array at what its
    write-backs leave; the generator register and the scoped rest pass through its invariant. -/
def reg1 : Pipeline.RegionSeg (pcfgs (F := F)) adm (pdats m) () defs₀ 𝒱₀ Lv lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ Lv lv 1 fun _ _ => rfl
  pre c := iprop(StableHlo.held (c : Thread nD τ) (Pipeline.ucRefs τ sig) (W3 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := arrays_of_ub1 (F := F) c (E3 m)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E3 m) c)
    unfold Pipeline.ΦA
    iintro ⟨Hp, -, Hr⟩
    isplitl [Hr]; · iexact Hr
    iexact Hp
  hout c := by
    rw [Pipeline.ownSems0_none]
    refine (hout1 (E3 m) c).trans ?_
    unfold Pipeline.ΦA
    iintro ⟨Hr, Hp⟩
    isplitl [Hp]; · iexact Hp
    isplitr; · iempintro
    iexact Hr
  hexit c := by
    have hjoin := ub_of_arrays1 (F := F) c (E3 m) (fun b => W4 m c b) ((pdats m 1 c).arrAt · cfg1.N)
      (((dat1 (E3 m) c).arrAt_in 0 rfl _).trans ((A_eq1 (E3 m) c 0).trans (W4_of_ne m c main_arg0 (by decide)).symm))
      (((dat1 (E3 m) c).arrAt_in 1 rfl _).trans ((A_eq1 (E3 m) c 1).trans (W4_of_ne m c main_arg0 (by decide)).symm))
      (((dat1 (E3 m) c).arrAt_in 2 rfl _).trans ((A_eq1 (E3 m) c 2).trans (W4_of_ne m c main_v5 (by decide)).symm))
      (((dat1 (E3 m) c).arrAt_in 3 rfl _).trans ((A_eq1 (E3 m) c 3).trans (W4_of_ne m c main_arg2 (by decide)).symm))
      (W4_v6 m c).symm
      (fun b hb => W4_of_ne m c b (fun e => hb (by rw [e, arrImage1]; decide)))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs (c : Dev nD) : List (Seg (pcfgs (F := F)) adm (pdats m) () defs₀ 𝒱₀ Lv lv) :=
  [.host (Gen.seg0 m 𝒱₀ Lv lv Er), .host (Gen.seg1 m 𝒱₀ Lv lv Er), .region (reg0 m), .region (reg1 m)]

set_option backward.isDefEq.respectTransparency.types false in
/-- THE RUN: from any memory with zero counters every weakly fair execution of @main terminates, nothing faulting;
    in every final state the result buffer holds what region 1's write-backs leave and the arguments are as launched. -/
theorem run : θ_run defs (onTc (τ := τ) (main (F := F))) ⟨m, fun _ => 0, ρ⟩ (fun r => ∀ c : Dev nD,
      r.2.mem ((c.tc : Thread nD τ).loc main_v6) = (dat1 (E3 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_dev (pcfgs (F := F)) adm (pdats m) () cellOf_inj emb₁ defs₀ 𝒱₀ Lv lv m ρ main
    (segs m)
    (fun c Q => by
      rewrite [main_chain c, Seg.run_eq_chain,
        show (segs m c).map Seg.prog = [
          StableHlo.seq hostOps0,
          StableHlo.seq hostOps0_1,
          Prog.lift (.customCall (Pipeline.entry 0) ()),
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c)) (Tₙ := Tn m)
    (hch := fun c => ⟨.rfl, .rfl, .rfl, .rfl, .rfl⟩)
    (hinit := by
      refine Pipeline.initEach Lv lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v6 (by decide))).trans (W4_v6 m c),
       (h c _ (mem_uc main_arg0 (by decide))).trans (W4_arg m c main_arg0 (by decide) (by decide) (by decide) (by decide)),
       (h c _ (mem_uc main_arg1 (by decide))).trans (W4_arg m c main_arg1 (by decide) (by decide) (by decide) (by decide)),
       (h c _ (mem_uc main_arg2 (by decide))).trans (W4_arg m c main_arg2 (by decide) (by decide) (by decide) (by decide))⟩)

/-- The frame claim's post follows: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run m ρ)

end Cert.Kernel.Hand

end
-- ==== Proof.Spec.lean ====
/-
  The mathematics of the weight update, stated once over plain coordinates and extended reals, with no program
  in sight.  Rows of the input are normalised, `xn b p = x b p / (‖x b‖ + ε)`; from them

    o p q      = (∑ b, xn b p · xn b q) · 2⁻⁶                       (the averaged outer product, 64 rows)
    out p q    = W p q − α · (∑ k, W p k · o k q) − lr · G p q        (what the two kernels compute)

  where the inner sum over the 4096 values of `k` is taken in eight consecutive stretches of 512, each added to a
  running total that starts at zero.  The reference instead multiplies `W` by the matrix `I − α · o'` with
  `o' k q = (∑ b, xn b k · xn b q) / 64`:

    ref p q    = (∑ k, W p k · (δ k q − α · o' k q)) − lr · G p q.

  The two agree whenever every entry of `W`, `xn` and `G` is a real number: multiplying by `2⁻⁶` is dividing by 64,
  `∑ k, W p k · δ k q = W p q`, and a real factor distributes over a finite sum of reals.  On the extended reals the
  last two steps fail at infinities, which is why the hypotheses ask for reals.
-/
import Idealize.ShloMosaic.PureOps.Ideal
import Idealize.ShloMosaic.PureOps.Ideal.Laws

noncomputable section

namespace Cert.Spec

open Idealize.ShloMosaic

/-- The four float constants of the programs, as the extended reals their words denote. -/
def cInv64 : EReal := Ideal.ofBits .f32 0x3C800000#32
def c64 : EReal := Ideal.ofBits .f32 0x42800000#32
def cAlpha : EReal := Ideal.ofBits .f32 0x3C23D70A#32
def cLr : EReal := Ideal.ofBits .f32 0x3A83126F#32

/-- The averaged outer product as the first kernel leaves it: the sum over the 64 rows, times `2⁻⁶`. -/
def outerK (xn : Fin 64 → Fin 4096 → EReal) (p q : Fin 4096) : EReal :=
  (∑ b : Fin 64, xn b p * xn b q) * cInv64

/-- Column `k` of stretch `n` of the contracted axis (`n < 8`, `k < 512`: column `512 n + k`). -/
def kcol (n : ℕ) (k : Fin 512) : Fin 4096 := ⟨(n * 512 + k.val) % 4096, Nat.mod_lt _ (by decide)⟩

/-- The running total of `∑ k, W p k · o k q` after the first `n` stretches of 512 columns, from zero. -/
def accK (W o : Fin 4096 → Fin 4096 → EReal) (p q : Fin 4096) : ℕ → EReal
  | 0 => 0
  | n + 1 => accK W o p q n + ∑ k : Fin 512, W p (kcol n k) * o (kcol n k) q

/-- What the second kernel writes at `(p, q)`. -/
def mmK (W o G : Fin 4096 → Fin 4096 → EReal) (p q : Fin 4096) : EReal :=
  W p q - cAlpha * accK W o p q 8 - cLr * G p q

/-- The identity matrix's entry. -/
def eye (k q : Fin 4096) : EReal := if k = q then 1 else 0

/-- What the reference computes at `(p, q)`. -/
def refR (W : Fin 4096 → Fin 4096 → EReal) (xn : Fin 64 → Fin 4096 → EReal) (G : Fin 4096 → Fin 4096 → EReal)
    (p q : Fin 4096) : EReal :=
  (∑ k : Fin 4096, W p k * (eye k q - cAlpha * Ideal.div (∑ b : Fin 64, xn b k * xn b q) c64)) - cLr * G p q

end Cert.Spec

end
-- ==== Proof.R0Value.lean ====
/-
  What the first kernel region leaves in its output array, at the ideal instance: entry (p, q) is the sum over the
  64 rows b of xn b p · xn b q, times 2⁻⁶ — `Spec.outerK` of the region's input array.  Block (i, j) of the array is
  written back at grid point (i, j) with what the body stored there, a function of the column blocks i and j of the
  input; the 8 × 8 blocks tile the array, so every entry is covered by exactly the point that holds its block.
-/
import proofs.«148084_j73916387164402_1_alg».proof.Proof.R0
import proofs.«148084_j73916387164402_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue.R0

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The region's input array (the normalised rows) and its output array after the run, as functions of an index. -/
abbrev xnArr (c : Dev nD) : S64x4096.Idx → EReal := V c main_v4
abbrev outerArr (c : Dev nD) : S4096x4096.Idx → EReal := (dat0 (F := Ideal) V c).arrAt 2 cfg0.N

/-- The zero offsets of the whole-buffer rectangles. -/
theorem hz : (![0, 0] : Fin 2 → Nat) = fun _ => 0 := funext fun a => by
  match a with | ⟨0, _⟩ => rfl | ⟨1, _⟩ => rfl

/-- The contraction's index maps on the literal axes: the contracted coordinate sits on axis 0 of either operand,
    the result's row and column on axis 1 of the left and of the right operand. -/
theorem lhs_pay_0 (i : S512x512.Idx) (k : dot_S64x512_S64x512_S512x512_0_0_1_1_n_n.contr.Idx) :
    (dot_S64x512_S64x512_S512x512_0_0_1_1_n_n.lhsIdx i k 0).val = (k ⟨0, by decide⟩).val :=
  dot_S64x512_S64x512_S512x512_0_0_1_1_n_n.lhsIdx_val_of_single rfl i k
theorem rhs_pay_0 (i : S512x512.Idx) (k : dot_S64x512_S64x512_S512x512_0_0_1_1_n_n.contr.Idx) :
    (dot_S64x512_S64x512_S512x512_0_0_1_1_n_n.rhsIdx i k 0).val = (k ⟨0, by decide⟩).val :=
  dot_S64x512_S64x512_S512x512_0_0_1_1_n_n.rhsIdx_val_of_single rfl i k
theorem lhs_pay_1 (i : S512x512.Idx) (k : dot_S64x512_S64x512_S512x512_0_0_1_1_n_n.contr.Idx) :
    (dot_S64x512_S64x512_S512x512_0_0_1_1_n_n.lhsIdx i k 1).val = (i 0).val := by
  unfold DotDims.lhsIdx
  rw [dif_neg (show ¬(1 : Fin S64x512.rank) ∈ dot_S64x512_S64x512_S512x512_0_0_1_1_n_n.lhsBatch by decide),
    dif_pos (show (1 : Fin S64x512.rank) ∈ dot_S64x512_S64x512_S512x512_0_0_1_1_n_n.lhsNonContracting by decide)]
  rfl
theorem rhs_pay_1 (i : S512x512.Idx) (k : dot_S64x512_S64x512_S512x512_0_0_1_1_n_n.contr.Idx) :
    (dot_S64x512_S64x512_S512x512_0_0_1_1_n_n.rhsIdx i k 1).val = (i 1).val := by
  unfold DotDims.rhsIdx
  rw [dif_neg (show ¬(1 : Fin S64x512.rank) ∈ dot_S64x512_S64x512_S512x512_0_0_1_1_n_n.rhsBatch by decide),
    dif_pos (show (1 : Fin S64x512.rank) ∈ dot_S64x512_S64x512_S512x512_0_0_1_1_n_n.rhsNonContracting by decide)]
  rfl

/-- What the body stores, at an index: the sum over the 64 rows of the products of the two blocks' entries in the
    index's row-th and column-th columns, times the scale constant. -/
theorem pay_apply (x0 x1 : Vec Ideal S64x512 .f32) (r s : Fin 512) :
    out0_2 (F := Ideal) x0 x1 (ix2 r s)
      = (∑ b : Fin 64, x0 (ix2 b r) * x1 (ix2 b s)) * Ideal.ofBits .f32 0x3C800000#32 := by
  unfold out0_2
  rw [View.canon_unit_zero hz]
  simp only [View.ld_unit_zero (S := S64x512) hz]
  unfold k0_pay1
  show FloatOps.matmul dot_S64x512_S64x512_S512x512_0_0_1_1_n_n none
      (truncf (F := Ideal) .bf16 (shapeCast S64x512 x0 shapeCasts_S64x512_S64x512) bitsLt_bf16_f32)
      (truncf (F := Ideal) .bf16 (shapeCast S64x512 x1 shapeCasts_S64x512_S64x512) bitsLt_bf16_f32)
      (constant S512x512 .f32 0x00000000#32) (ix2 r s) * Ideal.ofBits .f32 0x3C800000#32 = _
  rw [shapeCast_self, shapeCast_self, Ideal.matmul_constant_zero_apply,
    ← Equiv.sum_comp (contrEquiv1 dot_S64x512_S64x512_S512x512_0_0_1_1_n_n 64 rfl rfl).symm]
  refine congrArg (· * _) (Finset.sum_congr rfl fun b _ => ?_)
  have hb := contrEquiv1_symm_val dot_S64x512_S64x512_S512x512_0_0_1_1_n_n 64 rfl rfl b
  have el : dot_S64x512_S64x512_S512x512_0_0_1_1_n_n.lhsIdx (ix2 r s)
      ((contrEquiv1 dot_S64x512_S64x512_S512x512_0_0_1_1_n_n 64 rfl rfl).symm b) = ix2 b r :=
    funext fun a => Fin.ext (by
      match a with
      | ⟨0, _⟩ => exact (lhs_pay_0 _ _).trans hb
      | ⟨1, _⟩ => exact lhs_pay_1 _ _)
  have er : dot_S64x512_S64x512_S512x512_0_0_1_1_n_n.rhsIdx (ix2 r s)
      ((contrEquiv1 dot_S64x512_S64x512_S512x512_0_0_1_1_n_n 64 rfl rfl).symm b) = ix2 b s :=
    funext fun a => Fin.ext (by
      match a with
      | ⟨0, _⟩ => exact (rhs_pay_0 _ _).trans hb
      | ⟨1, _⟩ => exact rhs_pay_1 _ _)
  show x0 _ * x1 _ = _
  rw [el, er]

/-! ## The index maps over the grid -/

/-- Point `t` of the 8 × 8 grid has coordinates `(t / 8, t % 8)`: the output's block is `(t / 8, t % 8)`, the first
    input's column block is `t / 8`, the second's `t % 8`, and both inputs take all 64 rows. -/
theorem idx_facts : ∀ t : Fin cfg0.N,
    win0_2.index t (0 : Fin 2) = t.val / 8 ∧ win0_2.index t (1 : Fin 2) = t.val % 8
    ∧ win0_0.index t (0 : Fin 2) = 0 ∧ win0_0.index t (1 : Fin 2) = t.val / 8
    ∧ win0_1.index t (0 : Fin 2) = 0 ∧ win0_1.index t (1 : Fin 2) = t.val % 8 :=
  (by decide +kernel : ∀ t : Fin grid0.N, _)

/-! ## One function for the whole output array -/

/-- The averaged outer product of the region's input array, as a function of the output array's index. -/
abbrev G (c : Dev nD) : S4096x4096.Idx → EReal :=
  fun i => Cert.Spec.outerK (fun b p => xnArr V c (ix2 b p)) (i 0) (i 1)

/-- What point `t` writes back is its block of that function: the body's sum reads the input array's columns
    `512 · (t / 8) + r` and `512 · (t % 8) + s`, which are the row and the column of the output block's entry `(r, s)`. -/
theorem flushed_eq (c : Dev nD) (t : Fin cfg0.N) :
    (dat0 (F := Ideal) V c).flushed 2 t = ((cfg0.win 2).blk t).view.read (Elt Ideal) (G V c) := by
  show (cfg0.win 2).cut (grid0.coords t) ((dat0 (F := Ideal) V c).after 2 t) = _
  rw [after0_2]
  obtain ⟨e0, e1, e2, e3, e4, e5⟩ := idx_facts t
  funext j
  show out0_2 (F := Ideal) (iblk0 V c 0 t) (iblk0 V c 1 t) j = G V c (((cfg0.win 2).blk t).view.emb j)
  refine (congrArg (out0_2 (F := Ideal) (iblk0 V c 0 t) (iblk0 V c 1 t)) (eq_ix2 j)).trans
    ((pay_apply (iblk0 V c 0 t) (iblk0 V c 1 t) (j 0) (j 1)).trans ?_)
  show _ = (∑ b : Fin 64, xnArr V c (ix2 b ((((cfg0.win 2).blk t).view.emb j) 0))
      * xnArr V c (ix2 b ((((cfg0.win 2).blk t).view.emb j) 1))) * Ideal.ofBits .f32 0x3C800000#32
  refine congrArg (· * _) (Finset.sum_congr rfl fun b _ => ?_)
  show xnArr V c (((cfg0.win 0).blk t).view.emb (ix2 b (j 0))) * xnArr V c (((cfg0.win 1).blk t).view.emb (ix2 b (j 1))) = _
  have h0 : ((cfg0.win 0).blk t).view.emb (ix2 b (j 0)) = ix2 b ((((cfg0.win 2).blk t).view.emb j) 0) := by
    funext a; apply Fin.ext
    match a with
    | ⟨0, _⟩ => show win0_0.index t (0 : Fin 2) * 64 + 1 * b.val = b.val; omega
    | ⟨1, _⟩ => show win0_0.index t (1 : Fin 2) * 512 + 1 * (j 0).val = win0_2.index t (0 : Fin 2) * 512 + 1 * (j 0).val; omega
  have h1 : ((cfg0.win 1).blk t).view.emb (ix2 b (j 1)) = ix2 b ((((cfg0.win 2).blk t).view.emb j) 1) := by
    funext a; apply Fin.ext
    match a with
    | ⟨0, _⟩ => show win0_1.index t (0 : Fin 2) * 64 + 1 * b.val = b.val; omega
    | ⟨1, _⟩ => show win0_1.index t (1 : Fin 2) * 512 + 1 * (j 1).val = win0_2.index t (1 : Fin 2) * 512 + 1 * (j 1).val; omega
  rw [h0, h1]
  rfl

/-! ## The blocks tile the array -/

/-- An index of the array is in point `t`'s block iff each coordinate is in the block's range on its axis. -/
theorem mem_blk (t : Fin cfg0.N) (i : S4096x4096.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v5).slice (win0_2.rect t)).set ↔ _
  rw [View.set_slice_whole, Rect.mem_set_unit]
  exact Iff.rfl

/-- Entry `(p, q)` lies in the block of the point `8 · (p / 512) + q / 512`, and every point writes back. -/
theorem cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : (i 0).val / 512 * 8 + (i 1).val / 512 < cfg0.N := by
    show (i 0).val / 512 * 8 + (i 1).val / 512 < 64
    omega
  obtain ⟨e0, e1, -, -, -, -⟩ := idx_facts ⟨(i 0).val / 512 * 8 + (i 1).val / 512, hN⟩
  have e0' : win0_2.index ⟨(i 0).val / 512 * 8 + (i 1).val / 512, hN⟩ (0 : Fin 2)
      = ((i 0).val / 512 * 8 + (i 1).val / 512) / 8 := e0
  have e1' : win0_2.index ⟨(i 0).val / 512 * 8 + (i 1).val / 512, hN⟩ (1 : Fin 2)
      = ((i 0).val / 512 * 8 + (i 1).val / 512) % 8 := e1
  refine ⟨⟨(i 0).val / 512 * 8 + (i 1).val / 512, hN⟩, flush0_2 _, ?_⟩
  rw [mem_blk]
  intro a
  match a with
  | ⟨0, _⟩ =>
    show win0_2.index ⟨(i 0).val / 512 * 8 + (i 1).val / 512, hN⟩ (0 : Fin 2) * 512 ≤ (i 0).val
      ∧ (i 0).val < win0_2.index ⟨(i 0).val / 512 * 8 + (i 1).val / 512, hN⟩ (0 : Fin 2) * 512 + 512
    rw [e0']; omega
  | ⟨1, _⟩ =>
    show win0_2.index ⟨(i 0).val / 512 * 8 + (i 1).val / 512, hN⟩ (1 : Fin 2) * 512 ≤ (i 1).val
      ∧ (i 1).val < win0_2.index ⟨(i 0).val / 512 * 8 + (i 1).val / 512, hN⟩ (1 : Fin 2) * 512 + 512
    rw [e1']; omega

/-- The output array after the region is that function. -/
theorem outer_arr (c : Dev nD) : outerArr V c = G V c :=
  (dat0 (F := Ideal) V c).arrAt_eq_of_cover 2 (G V c) (fun t _ => flushed_eq V c t) (cover)

/-- After the first region its output array holds the averaged outer product of the normalised rows. -/
theorem outer_value (c : Dev nD) (p q : Fin 4096) :
    outerArr V c (ix2 p q) = Cert.Spec.outerK (fun b p => xnArr V c (ix2 b p)) p q := by
  rw [outer_arr]

end Cert.KernelIdeal.HandValue.R0

end
-- ==== Proof.R1Value.lean ====
/-
  What the second kernel region leaves in its output array, at the ideal instance: entry (p, q) is
  `W p q − α · (the running total after eight stretches) − lr · G p q` — `Spec.mmK` of the region's three input
  arrays.  Block (i, j) of the output is written back once, at the grid point (i, j, 7); the running total there is
  the scratch after the eight points (i, j, 0..7), which starts from zero at k = 0 and at each k gains the product of
  the block (i, k) of W and the block (k, j) of the outer product.  The 4 × 4 blocks tile the array.
-/
import proofs.«148084_j73916387164402_1_alg».proof.Proof.R1
import proofs.«148084_j73916387164402_1_alg».proof.Proof.Spec
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

namespace Cert.KernelIdeal.HandValue.R1

open Cert.KernelIdeal Cert.KernelIdeal.Gen Cert.KernelIdeal.Hand
open Idealize.ShloMosaic Idealize.ShloMosaic.TcCoe Idealize.ShloMosaic.ValueIdx Idealize.ShloMosaic.Tactic
open Idealize.SL Idealize.SL.Sem
open Idealize.ShloMosaic.Pipeline (Dat Cfg Window)

/-! ## What each case leaves, as a function of the point's blocks -/

section Pieces
variable {F : FTy → Type} [FloatOps F]

/-- The zero offsets, as a constant function. -/
theorem hz : (![0, 0] : Fin 2 → Nat) = fun _ => 0 := funext fun a => by fin_cases a <;> rfl

/-- A middle point leaves in the scratch one stretch's step on what the scratch held. -/
theorem soutB_eq (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i) (x0 : Vec F S1024x512 .f32) (x1 : Vec F S1024x1024 .f32) (x2 : Vec F S512x1024 .bf16) (x3 : Vec F S1024x1024 .f32) (xs0 : Vec F S1024x1024 .f32) :
    sout1_B_0 c i arg3 harg3 arg4 harg4 arg5 harg5 arg6 harg6 arg7 harg7 arg8 harg8 hc0 hc1 x0 x1 x2 x3 xs0 = k1_pay2 x0 x2 xs0 := by
  unfold sout1_B_0
  rw [View.read_writes_eq_canon _ _ _ (scover1_B_0 c i arg3 harg3 arg4 harg4 arg5 harg5 arg6 harg6 arg7 harg7 arg8 harg8 hc0 hc1 x0 x1 x2 x3 xs0)]
  unfold kernelRun1_B
  dsimp only
  try sl_unfold_words
  rw [View.canon_unit_zero hz]
  simp only [View.readAt_eq_ld, harg3.read_unread, harg5.read_unread, harg8.read_unread, View.ld_unit_zero (S := S1024x512) hz, View.ld_unit_zero (S := S512x1024) hz, View.ld_unit_zero (S := S1024x1024) hz]

/-- So does the last point of a block; -/
theorem soutC_eq (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i) (x0 : Vec F S1024x512 .f32) (x1 : Vec F S1024x1024 .f32) (x2 : Vec F S512x1024 .bf16) (x3 : Vec F S1024x1024 .f32) (xs0 : Vec F S1024x1024 .f32) :
    sout1_C_0 c i arg3 harg3 arg4 harg4 arg5 harg5 arg6 harg6 arg7 harg7 arg8 harg8 hc0 hc1 x0 x1 x2 x3 xs0 = k1_pay2 x0 x2 xs0 := by
  unfold sout1_C_0
  rw [View.read_writes_eq_canon _ _ _ (scover1_C_0 c i arg3 harg3 arg4 harg4 arg5 harg5 arg6 harg6 arg7 harg7 arg8 harg8 hc0 hc1 x0 x1 x2 x3 xs0)]
  unfold kernelRun1_C
  dsimp only
  try sl_unfold_words
  rw [View.canon_unit_zero hz]
  simp only [View.readAt_eq_ld, harg3.read_unread, harg5.read_unread, harg8.read_unread, View.ld_unit_zero (S := S1024x512) hz, View.ld_unit_zero (S := S512x1024) hz, View.ld_unit_zero (S := S1024x1024) hz]

/-- and it leaves in the output buffer the closing step over that new total. -/
theorem outC_eq (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i) (x0 : Vec F S1024x512 .f32) (x1 : Vec F S1024x1024 .f32) (x2 : Vec F S512x1024 .bf16) (x3 : Vec F S1024x1024 .f32) (xs0 : Vec F S1024x1024 .f32) :
    out1_C_4 c i arg3 harg3 arg4 harg4 arg5 harg5 arg6 harg6 arg7 harg7 arg8 harg8 hc0 hc1 x0 x1 x2 x3 xs0 = k1_pay3 x1 (k1_pay2 x0 x2 xs0) x3 := by
  unfold out1_C_4
  rw [View.read_writes_eq_canon _ _ _ (cover1_C_4 c i arg3 harg3 arg4 harg4 arg5 harg5 arg6 harg6 arg7 harg7 arg8 harg8 hc0 hc1 x0 x1 x2 x3 xs0)]
  unfold kernelRun1_C
  dsimp only
  try sl_unfold_words
  rw [View.canon_unit_zero hz, View.readCov_unit_zero (S := S1024x1024) _ hz]
  simp only [View.readAt_eq_ld, harg3.read_unread, harg4.read_unread, harg5.read_unread, harg6.read_unread, harg8.read_unread, View.ld_unit_zero (S := S1024x512) hz, View.ld_unit_zero (S := S512x1024) hz, View.ld_unit_zero (S := S1024x1024) hz]

/-- The first point of a block stores zeros and leaves one stretch's step on them. -/
theorem soutA_eq (c : Dev nD) (i : grid1.Coords) (arg3 : Memref sig .tc .vmem S1024x512 .f32) (harg3 : arg3.IsWhole) (arg4 : Memref sig .tc .vmem S1024x1024 .f32) (harg4 : arg4.IsWhole) (arg5 : Memref sig .tc .vmem S512x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i) (x0 : Vec F S1024x512 .f32) (x1 : Vec F S1024x1024 .f32) (x2 : Vec F S512x1024 .bf16) (x3 : Vec F S1024x1024 .f32) :
    sout1_A_0 c i arg3 harg3 arg4 harg4 arg5 harg5 arg6 harg6 arg7 harg7 arg8 harg8 hc0 hc1 x0 x1 x2 x3 = k1_pay2 x0 x2 (k1_pay1 (F := F)) := by
  unfold sout1_A_0
  rw [View.read_writes_eq_canon _ _ _ (scover1_A_0 c i arg3 harg3 arg4 harg4 arg5 harg5 arg6 harg6 arg7 harg7 arg8 harg8 hc0 hc1 x0 x1 x2 x3)]
  unfold kernelRun1_A
  dsimp only
  try sl_unfold_words
  rw [View.canon_cons_unit_zero (S := S1024x1024) hz, View.readCov_unit_zero (S := S1024x1024) _ hz]
  simp only [View.readAt_eq_ld, harg3.read_unread, harg5.read_unread, View.ld_unit_zero (S := S1024x512) hz, View.ld_unit_zero (S := S512x1024) hz, View.ld_unit_zero (S := S1024x1024) hz]

end Pieces

/-! ## The three payloads at an entry, over the extended reals -/

section Payloads

/-- The zero block the reset stores reads `0` everywhere. -/
theorem pay1_apply (r s : Fin 1024) : (k1_pay1 (F := Ideal)) (ix2 r s) = (0 : EReal) := by
  unfold k1_pay1
  rw [shapeCast_self]
  exact Ideal.ofBits_zero_f32

/-- The product's operand indices at output entry `j` and contraction index `q`: `(j₀, q)` on the left, -/
theorem lhs_ax0 (j : S1024x1024.Idx) (q : dot_S1024x512_S512x1024_S1024x1024_1_0_0_1_n_n.contr.Idx) : (dot_S1024x512_S512x1024_S1024x1024_1_0_0_1_n_n.lhsIdx j q 0).val = (j 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_ax1 (j : S1024x1024.Idx) (q : dot_S1024x512_S512x1024_S1024x1024_1_0_0_1_n_n.contr.Idx) : (dot_S1024x512_S512x1024_S1024x1024_1_0_0_1_n_n.lhsIdx j q 1).val = (q ⟨0, by decide⟩).val :=
  dot_S1024x512_S512x1024_S1024x1024_1_0_0_1_n_n.lhsIdx_val_of_single rfl j q
/-- `(q, j₁)` on the right. -/
theorem rhs_ax0 (j : S1024x1024.Idx) (q : dot_S1024x512_S512x1024_S1024x1024_1_0_0_1_n_n.contr.Idx) : (dot_S1024x512_S512x1024_S1024x1024_1_0_0_1_n_n.rhsIdx j q 0).val = (q ⟨0, by decide⟩).val :=
  dot_S1024x512_S512x1024_S1024x1024_1_0_0_1_n_n.rhsIdx_val_of_single rfl j q
theorem rhs_ax1 (j : S1024x1024.Idx) (q : dot_S1024x512_S512x1024_S1024x1024_1_0_0_1_n_n.contr.Idx) : (dot_S1024x512_S512x1024_S1024x1024_1_0_0_1_n_n.rhsIdx j q 1).val = (j 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- One stretch's step on a block entry: the running total there plus the 512 products of the row of the left block
    with the column of the right block. -/
theorem pay2_apply (x0 : Vec Ideal S1024x512 .f32) (x2 : Vec Ideal S512x1024 .bf16) (acc : Vec Ideal S1024x1024 .f32) (r s : Fin 1024) :
    k1_pay2 x0 x2 acc (ix2 r s) = (acc (ix2 r s) + ∑ k : Fin 512, x0 (ix2 r k) * x2 (ix2 k s) : EReal) := by
  unfold k1_pay2
  rw [shapeCast_self, shapeCast_self]
  refine (addf_apply _ _ _).trans ?_
  refine congrArg (fun z : EReal => acc (ix2 r s) + z) ?_
  refine (Ideal.matmul_constant_zero_apply (φ₁ := .bf16) (φ₂ := .bf16) dot_S1024x512_S512x1024_S1024x1024_1_0_0_1_n_n none (truncf .bf16 x0 bitsLt_bf16_f32) x2 (ix2 r s)).trans ?_
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 r s) ((contrEquiv1 dot_S1024x512_S512x1024_S1024x1024_1_0_0_1_n_n 512 rfl rfl).symm k) = ix2 r k := funext fun a => Fin.ext (by
    match a with
    | ⟨0, _⟩ => exact lhs_ax0 _ _
    | ⟨1, _⟩ => exact (lhs_ax1 _ _).trans hk)
  have er : dot_S1024x512_S512x1024_S1024x1024_1_0_0_1_n_n.rhsIdx (ix2 r s) ((contrEquiv1 dot_S1024x512_S512x1024_S1024x1024_1_0_0_1_n_n 512 rfl rfl).symm k) = ix2 k s := funext fun a => Fin.ext (by
    match a with
    | ⟨0, _⟩ => exact (rhs_ax0 _ _).trans hk
    | ⟨1, _⟩ => exact rhs_ax1 _ _)
  rw [el, er]
  rfl

/-- The closing step on a block entry. -/
theorem pay3_apply (w acc g : Vec Ideal S1024x1024 .f32) (r s : Fin 1024) :
    k1_pay3 w acc g (ix2 r s) = (w (ix2 r s) - Cert.Spec.cAlpha * acc (ix2 r s) - Cert.Spec.cLr * g (ix2 r s) : EReal) := rfl

end Payloads

/-! ## The blocks a point reads, as entries of the arrays -/

section Blocks

/-- The five index maps over the grid: point `t = (i · 4 + j) · 8 + k` reads block `(i, k)` of `W`, block `(k, j)`
    of the outer product, and block `(i, j)` of `W`, of `G` and of the output. -/
theorem idx_facts : ∀ t : Fin cfg1.N,
    (win1_0.index t (0 : Fin 2) = t.val / 32 ∧ win1_0.index t (1 : Fin 2) = t.val % 8)
    ∧ (win1_1.index t (0 : Fin 2) = t.val / 32 ∧ win1_1.index t (1 : Fin 2) = t.val / 8 % 4)
    ∧ (win1_2.index t (0 : Fin 2) = t.val % 8 ∧ win1_2.index t (1 : Fin 2) = t.val / 8 % 4)
    ∧ (win1_3.index t (0 : Fin 2) = t.val / 32 ∧ win1_3.index t (1 : Fin 2) = t.val / 8 % 4)
    ∧ (win1_4.index t (0 : Fin 2) = t.val / 32 ∧ win1_4.index t (1 : Fin 2) = t.val / 8 % 4) :=
  (by decide +kernel : ∀ t : Fin grid1.N,
    (win1_0.index t (0 : Fin 2) = t.val / 32 ∧ win1_0.index t (1 : Fin 2) = t.val % 8)
    ∧ (win1_1.index t (0 : Fin 2) = t.val / 32 ∧ win1_1.index t (1 : Fin 2) = t.val / 8 % 4)
    ∧ (win1_2.index t (0 : Fin 2) = t.val % 8 ∧ win1_2.index t (1 : Fin 2) = t.val / 8 % 4)
    ∧ (win1_3.index t (0 : Fin 2) = t.val / 32 ∧ win1_3.index t (1 : Fin 2) = t.val / 8 % 4)
    ∧ (win1_4.index t (0 : Fin 2) = t.val / 32 ∧ win1_4.index t (1 : Fin 2) = t.val / 8 % 4))

variable (V : (c : Dev nD) → (b : Ref sig .tc) → Buf (Elt Ideal) ((c : Thread nD τ).loc b))

/-- The point's four input blocks, at their literal types. -/
abbrev wblk (c : Dev nD) (t : Fin cfg1.N) : Vec Ideal S1024x512 .f32 := iblk1 V c 0 t
abbrev wwblk (c : Dev nD) (t : Fin cfg1.N) : Vec Ideal S1024x1024 .f32 := iblk1 V c 1 t
abbrev oblk (c : Dev nD) (t : Fin cfg1.N) : Vec Ideal S512x1024 .bf16 := iblk1 V c 2 t
abbrev gblk (c : Dev nD) (t : Fin cfg1.N) : Vec Ideal S1024x1024 .f32 := iblk1 V c 3 t

/-- Entry `(r, k)` of the block of `W` the product reads at point `t` is entry `(1024 i + r, 512 k' + k)` of `W`. -/
theorem wblk_apply (c : Dev nD) (t : Fin cfg1.N) (r : Fin 1024) (k : Fin 512) (P K : Fin 4096)
    (hP : P.val = t.val / 32 * 1024 + r.val) (hK : K.val = t.val % 8 * 512 + k.val) :
    wblk V c t (ix2 r k) = (V c main_arg0 : S4096x4096.Idx → EReal) (ix2 P K) := by
  obtain ⟨⟨h0, h1⟩, -⟩ := idx_facts t
  unfold wblk iblk1
  rw [View.read_apply]
  show (V c main_arg0 : S4096x4096.Idx → EReal) _ = (V c main_arg0 : S4096x4096.Idx → EReal) _
  congr 1
  funext a
  apply Fin.ext
  match a with
  | ⟨0, _⟩ => show win1_0.index t (0 : Fin 2) * 1024 + 1 * r.val = P.val; rw [h0, hP]; omega
  | ⟨1, _⟩ => show win1_0.index t (1 : Fin 2) * 512 + 1 * k.val = K.val; rw [h1, hK]; omega

/-- Entry `(r, s)` of block `(i, j)` of `W` is entry `(1024 i + r, 1024 j + s)` of `W`. -/
theorem wwblk_apply (c : Dev nD) (t : Fin cfg1.N) (r s : Fin 1024) (P Q : Fin 4096)
    (hP : P.val = t.val / 32 * 1024 + r.val) (hQ : Q.val = t.val / 8 % 4 * 1024 + s.val) :
    wwblk V c t (ix2 r s) = (V c main_arg0 : S4096x4096.Idx → EReal) (ix2 P Q) := by
  obtain ⟨-, ⟨h0, h1⟩, -⟩ := idx_facts t
  unfold wwblk iblk1
  rw [View.read_apply]
  show (V c main_arg0 : S4096x4096.Idx → EReal) _ = (V c main_arg0 : S4096x4096.Idx → EReal) _
  congr 1
  funext a
  apply Fin.ext
  match a with
  | ⟨0, _⟩ => show win1_1.index t (0 : Fin 2) * 1024 + 1 * r.val = P.val; rw [h0, hP]; omega
  | ⟨1, _⟩ => show win1_1.index t (1 : Fin 2) * 1024 + 1 * s.val = Q.val; rw [h1, hQ]; omega

/-- Entry `(k, s)` of the block of the outer product the product reads at point `t` is its entry `(512 k' + k, 1024 j + s)`. -/
theorem oblk_apply (c : Dev nD) (t : Fin cfg1.N) (k : Fin 512) (s : Fin 1024) (K Q : Fin 4096)
    (hK : K.val = t.val % 8 * 512 + k.val) (hQ : Q.val = t.val / 8 % 4 * 1024 + s.val) :
    oblk V c t (ix2 k s) = (V c main_v5 : S4096x4096.Idx → EReal) (ix2 K Q) := by
  obtain ⟨-, -, ⟨h0, h1⟩, -⟩ := idx_facts t
  unfold oblk iblk1
  rw [View.read_apply]
  show (V c main_v5 : S4096x4096.Idx → EReal) _ = (V c main_v5 : S4096x4096.Idx → EReal) _
  congr 1
  funext a
  apply Fin.ext
  match a with
  | ⟨0, _⟩ => show win1_2.index t (0 : Fin 2) * 512 + 1 * k.val = K.val; rw [h0, hK]; omega
  | ⟨1, _⟩ => show win1_2.index t (1 : Fin 2) * 1024 + 1 * s.val = Q.val; rw [h1, hQ]; omega

/-- Entry `(r, s)` of block `(i, j)` of `G`. -/
theorem gblk_apply (c : Dev nD) (t : Fin cfg1.N) (r s : Fin 1024) (P Q : Fin 4096)
    (hP : P.val = t.val / 32 * 1024 + r.val) (hQ : Q.val = t.val / 8 % 4 * 1024 + s.val) :
    gblk V c t (ix2 r s) = (V c main_arg2 : S4096x4096.Idx → EReal) (ix2 P Q) := by
  obtain ⟨-, -, -, ⟨h0, h1⟩, -⟩ := idx_facts t
  unfold gblk iblk1
  rw [View.read_apply]
  show (V c main_arg2 : S4096x4096.Idx → EReal) _ = (V c main_arg2 : S4096x4096.Idx → EReal) _
  congr 1
  funext a
  apply Fin.ext
  match a with
  | ⟨0, _⟩ => show win1_3.index t (0 : Fin 2) * 1024 + 1 * r.val = P.val; rw [h0, hP]; omega
  | ⟨1, _⟩ => show win1_3.index t (1 : Fin 2) * 1024 + 1 * s.val = Q.val; rw [h1, hQ]; omega

end Blocks

variable (V : (c : Dev nD) → (b : Ref sig .tc) → Buf (Elt Ideal) ((c : Thread nD τ).loc b))

/-- The region's three input arrays and its output array after the run, as functions of an index. -/
abbrev wArr (c : Dev nD) : S4096x4096.Idx → EReal := V c main_arg0
abbrev oArr (c : Dev nD) : S4096x4096.Idx → EReal := V c main_v5
abbrev gArr (c : Dev nD) : S4096x4096.Idx → EReal := V c main_arg2
abbrev mmArr (c : Dev nD) : S4096x4096.Idx → EReal := (dat1 (F := Ideal) V c).arrAt 4 cfg1.N

/-! ## The running total, point by point -/

section Invariant

/-- The three arrays by coordinates. -/
abbrev Wf (c : Dev nD) : Fin 4096 → Fin 4096 → EReal := fun p q => wArr V c (ix2 p q)
abbrev Of (c : Dev nD) : Fin 4096 → Fin 4096 → EReal := fun p q => oArr V c (ix2 p q)
abbrev Gf (c : Dev nD) : Fin 4096 → Fin 4096 → EReal := fun p q => gArr V c (ix2 p q)

/-- Row (or column) `r` of block `b` (one of four), as a row (or column) of the array: `1024 b + r`. -/
def acoord (b : ℕ) (r : Fin 1024) : Fin 4096 := ⟨b % 4 * 1024 + r.val, by have := r.isLt; have := Nat.mod_lt b (show 0 < 4 by decide); omega⟩

theorem acoord_val (b : ℕ) (hb : b < 4) (r : Fin 1024) : (acoord b r).val = b * 1024 + r.val := by
  show b % 4 * 1024 + r.val = b * 1024 + r.val
  rw [Nat.mod_eq_of_lt hb]

theorem kcol_val (n : ℕ) (hn : n < 8) (k : Fin 512) : (Cert.Spec.kcol n k).val = n * 512 + k.val := by
  have := k.isLt
  unfold Cert.Spec.kcol
  exact Nat.mod_eq_of_lt (by omega)

/-- One stretch's step at point `t`, on an entry of the block: the total there gains the 512 products of stretch
    `k = t mod 8` of row `1024 i + r` of `W` and column `1024 j + s` of the outer product. -/
theorem step_apply (c : Dev nD) (t : Fin cfg1.N) (prev : Vec Ideal S1024x1024 .f32) (r s : Fin 1024) :
    k1_pay2 (wblk V c t) (oblk V c t) prev (ix2 r s)
      = (prev (ix2 r s) + ∑ k : Fin 512, Wf V c (acoord (t.val / 32) r) (Cert.Spec.kcol (t.val % 8) k)
            * Of V c (Cert.Spec.kcol (t.val % 8) k) (acoord (t.val / 8 % 4) s) : EReal) := by
  have hN : cfg1.N = 128 := N_1
  have ht := t.isLt
  rw [pay2_apply]
  refine congrArg (fun z : EReal => prev (ix2 r s) + z) (Finset.sum_congr rfl fun k _ => ?_)
  rw [wblk_apply V c t r k (acoord (t.val / 32) r) (Cert.Spec.kcol (t.val % 8) k)
      (acoord_val _ (by omega) r) (kcol_val _ (Nat.mod_lt _ (by decide)) k),
    oblk_apply V c t k s (Cert.Spec.kcol (t.val % 8) k) (acoord (t.val / 8 % 4) s)
      (kcol_val _ (Nat.mod_lt _ (by decide)) k) (acoord_val _ (Nat.mod_lt _ (by decide)) s)]

/-- THE INVARIANT: after point `n = (i · 4 + j) · 8 + k` the scratch holds, at `(r, s)`, the running total of entry
    `(1024 i + r, 1024 j + s)` after stretches `0 … k`. -/
theorem scratch_inv (c : Dev nD) : ∀ (n : ℕ) (hn : n < cfg1.N) (r s : Fin 1024),
    (outsAt1 V c n hn).2 (ix2 r s)
      = Cert.Spec.accK (Wf V c) (Of V c) (acoord (n / 32) r) (acoord (n / 8 % 4) s) (n % 8 + 1) := by
  intro n
  induction n with
  | zero =>
    intro hn r s
    have e := outsAt1_zero V c ⟨0, hn⟩ rfl (VS1_0.read (Elt Ideal) VS1_0.junk)
    rw [e]; unfold pointOut1; rw [dif_pos (show (⟨0, hn⟩ : Fin cfg1.N).val % 8 = 0 from rfl)]; dsimp only
    rw [soutA_eq, step_apply, pay1_apply]
    rfl
  | succ m ih =>
    intro hn r s
    by_cases h0 : (m + 1) % 8 = 0
    · have e := outsAt1_zero V c ⟨m + 1, hn⟩ h0 (VS1_0.read (Elt Ideal) VS1_0.junk)
      rw [e]; unfold pointOut1; rw [dif_pos (show (⟨m + 1, hn⟩ : Fin cfg1.N).val % 8 = 0 from h0)]; dsimp only
      rw [soutA_eq, step_apply, pay1_apply]
      show _ = Cert.Spec.accK _ _ _ _ ((m + 1) % 8 + 1)
      rw [show (⟨m + 1, hn⟩ : Fin cfg1.N).val = m + 1 from rfl, h0]
      rfl
    · have e := outsAt1_pos V c ⟨m + 1, hn⟩ (Nat.succ_ne_zero m)
      have ihm := ih (Nat.lt_of_succ_lt hn) r s
      have e32 : m / 32 = (m + 1) / 32 := by omega
      have e8 : m / 8 % 4 = (m + 1) / 8 % 4 := by omega
      have ek : m % 8 + 1 = (m + 1) % 8 := by omega
      rw [e32, e8, ek] at ihm
      rw [e]; unfold pointOut1; rw [dif_neg (show ¬(⟨m + 1, hn⟩ : Fin cfg1.N).val % 8 = 0 from h0)]
      by_cases h1 : (m + 1) % 8 = 7
      · rw [dif_pos (show (⟨m + 1, hn⟩ : Fin cfg1.N).val % 8 = 7 from h1)]; dsimp only
        rw [soutC_eq, step_apply]
        show (outsAt1 V c m _).2 (ix2 r s) + _ = _
        rw [ihm]
        rfl
      · rw [dif_neg (show ¬(⟨m + 1, hn⟩ : Fin cfg1.N).val % 8 = 7 from h1)]; dsimp only
        rw [soutB_eq, step_apply]
        show (outsAt1 V c m _).2 (ix2 r s) + _ = _
        rw [ihm]
        rfl

end Invariant

/-! ## The output array -/

section Output

/-- The whole-array result: `Spec.mmK` of the three arrays at each entry. -/
def Gres (c : Dev nD) : S4096x4096.Idx → EReal :=
  fun i => Cert.Spec.mmK (Wf V c) (Of V c) (Gf V c) (i 0) (i 1)

/-- What a point with `k = 7` leaves in the output buffer, entry by entry: `Spec.mmK` at the entry's array
    coordinates (the running total there is the one after all eight stretches). -/
theorem out_apply (c : Dev nD) (t : Fin cfg1.N) (h1 : t.val % 8 = 7) (r s : Fin 1024) :
    (outsAt1 V c t.val t.isLt).1 (ix2 r s)
      = Cert.Spec.mmK (Wf V c) (Of V c) (Gf V c) (acoord (t.val / 32) r) (acoord (t.val / 8 % 4) s) := by
  have hN : cfg1.N = 128 := N_1
  have ht := t.isLt
  have h0 : ¬t.val % 8 = 0 := by omega
  have hne : t.val ≠ 0 := fun h => h0 (by rw [h])
  rw [outsAt1_pos V c t hne]; unfold pointOut1; rw [dif_neg h0, dif_pos h1]; dsimp only
  rw [outC_eq, pay3_apply, step_apply]
  have ihm := scratch_inv V c (t.val - 1) (Nat.lt_of_le_of_lt (Nat.sub_le _ _) t.isLt) r s
  have e32 : (t.val - 1) / 32 = t.val / 32 := by omega
  have e8 : (t.val - 1) / 8 % 4 = t.val / 8 % 4 := by omega
  have ek : (t.val - 1) % 8 + 1 = 7 := by omega
  rw [e32, e8, ek] at ihm
  rw [ihm, h1]
  have ew := wwblk_apply V c t r s (acoord (t.val / 32) r) (acoord (t.val / 8 % 4) s)
      (acoord_val _ (by omega) r) (acoord_val _ (Nat.mod_lt _ (by decide)) s)
  have eg := gblk_apply V c t r s (acoord (t.val / 32) r) (acoord (t.val / 8 % 4) s)
      (acoord_val _ (by omega) r) (acoord_val _ (Nat.mod_lt _ (by decide)) s)
  unfold wwblk at ew
  unfold gblk at eg
  rw [ew, eg]
  rfl

/-- Two functions of a block index agree when they agree at every pair of coordinates. -/
theorem blockfun_ext (X Y : S1024x1024.Idx → EReal) (h : ∀ r s : Fin 1024, X (ix2 r s) = Y (ix2 r s)) : X = Y :=
  funext fun y => by rw [eq_ix2 y]; exact h _ _

/-- What a flushing point writes back is its block of the whole-array result. -/
theorem flushed_eq (c : Dev nD) (t : Fin cfg1.N) (hf : (cfg1.win 4).flush t = true) :
    (dat1 (F := Ideal) V c).flushed 4 t = ((cfg1.win 4).blk t).view.read (Elt Ideal) (Gres V c) := by
  have hN : cfg1.N = 128 := N_1
  have ht := t.isLt
  have h1 : t.val % 8 = 7 := (flush1_4 t).mp hf
  obtain ⟨-, -, -, -, ⟨h40, h41⟩⟩ := idx_facts t
  show (cfg1.win 4).cut (grid1.coords t) ((dat1 (F := Ideal) V c).after 4 t) = _
  rw [after1_4]
  refine blockfun_ext _ _ fun r s => ?_
  rw [View.read_apply]
  refine (out_apply V c t h1 r s).trans ?_
  rw [cast_eq]
  unfold Gres
  refine congrArg₂ (Cert.Spec.mmK (Wf V c) (Of V c) (Gf V c)) (Fin.ext ?_) (Fin.ext ?_)
  · show (acoord (t.val / 32) r).val = win1_4.index t (0 : Fin 2) * 1024 + 1 * r.val
    rw [acoord_val _ (by omega) r, h40]; omega
  · show (acoord (t.val / 8 % 4) s).val = win1_4.index t (1 : Fin 2) * 1024 + 1 * s.val
    rw [acoord_val _ (Nat.mod_lt _ (by decide)) s, h41]; omega

end Output

/-- After the second region its output array holds `W − α · (W · o, summed in eight stretches) − lr · G`. -/
theorem mm_value (c : Dev nD) (p q : Fin 4096) :
    mmArr V c (ix2 p q)
      = Cert.Spec.mmK (fun p q => wArr V c (ix2 p q)) (fun p q => oArr V c (ix2 p q)) (fun p q => gArr V c (ix2 p q)) p q := by
  have hN : cfg1.N = 128 := N_1
  have hp := p.isLt
  have hq := q.isLt
  obtain ⟨t, htv⟩ : ∃ t : Fin cfg1.N, t.val = (p.val / 1024 * 4 + q.val / 1024) * 8 + 7 := ⟨⟨_, by omega⟩, rfl⟩
  have hf : (cfg1.win 4).flush t = true := (flush1_4 t).mpr (by omega)
  obtain ⟨-, -, -, -, ⟨h40, h41⟩⟩ := idx_facts t
  have hi : (ix2 p q : S4096x4096.Idx) ∈ ((cfg1.win 4).blk t).view.set := by
    show (ix2 p q : S4096x4096.Idx) ∈ ((View.whole main_v6).slice (win1_4.rect t)).set
    rw [View.set_slice_whole, Rect.mem_set_unit]
    intro a
    match a with
    | ⟨0, _⟩ =>
      show win1_4.index t (0 : Fin 2) * 1024 ≤ p.val ∧ p.val < win1_4.index t (0 : Fin 2) * 1024 + 1024
      rw [h40]; omega
    | ⟨1, _⟩ =>
      show win1_4.index t (1 : Fin 2) * 1024 ≤ q.val ∧ q.val < win1_4.index t (1 : Fin 2) * 1024 + 1024
      rw [h41]; omega
  exact (dat1 (F := Ideal) V c).arrAt_apply_of_mem 4 (Gres V c) (flushed_eq V c) cfg1.N t (ix2 p q) t.isLt hf hi

end Cert.KernelIdeal.HandValue.R1

end
-- ==== Proof.RefValue.lean ====
/-
  The reference read at an index.  Its program computes, operation by operation: the row norms of `x`, the
  normalised rows `xn = x / (‖x‖ + ε)`, their averaged outer product divided by 64, the matrix `I − α · o'`, the
  product of `W` with it, and the difference with `lr · G`.  Read at the index `(p, q)` that is `Spec.refR`.
  The normalised rows are real numbers whenever `x` is: a sum of squares of reals is a non-negative real, its
  square root is a real, adding the positive `ε` gives a non-zero real, and a real divided by a non-zero real is real.
-/
import proofs.«148084_j73916387164402_1_alg».proof.Proof.Gen.ReferenceIdeal.Run
import proofs.«148084_j73916387164402_1_alg».proof.Proof.Gen.ReferenceIdeal.Read
import proofs.«148084_j73916387164402_1_alg».proof.Proof.Spec
import Idealize.ShloMosaic.Lib.ValueIdx
import Idealize.ShloMosaic.PureOps.Ideal.Laws

noncomputable section

namespace Cert.RefValue

open Idealize.ShloMosaic Idealize.ShloMosaic.ValueIdx Cert.ReferenceIdeal Cert.ReferenceIdeal.Gen

/-- The normalised rows `x / (‖x‖ + ε)`, entry `(b, p)`, as the host operations compute them. -/
def xnOf (x : FVec Ideal S64x4096 .f32) (b : Fin 64) (p : Fin 4096) : EReal :=
  Cert.ReferenceIdeal.Read.val_main_v4 (F := Ideal) x (ix2 b p)

/-! ## The normalised rows of a real matrix are real -/

/-- The word `0x322BCC77` (the `ε` of the norm) denotes a positive real. -/
theorem eps_pos : ∃ e : ℝ, 0 < e ∧ Ideal.ofBits .f32 0x322BCC77#32 = (e : EReal) := by
  refine ⟨(11258999 : ℝ) * (2 : ℝ) ^ (-50 : ℤ), by positivity, ?_⟩
  simp [Ideal.ofBits, Ideal.ieee, -EReal.coe_mul]

/-- A finite sum of real numbers, taken in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The sum of the squares along a row of a real matrix: zero plus the real sum of squares. -/
theorem rowsum_real (x : FVec Ideal S64x4096 .f32) (r : S64x4096.Idx → ℝ) (hr : ∀ i, x i = (r i : EReal)) (i : S64.Idx) :
    Read.val_main_call0_v1 (F := Ideal) x i = ((∑ k : Fin 4096, r (Read.idx_main_call0_v1 i k) * r (Read.idx_main_call0_v1 i k) : ℝ) : EReal) := by
  rw [Read.val_main_call0_v1_apply, Read.val_main_call0_cst_apply, Ideal.ofBits_def, Ideal.ofBits_zero_f32, zero_add,
    ← coe_sum]
  refine Finset.sum_congr rfl fun k _ => ?_
  rw [Read.val_main_call0_v0_apply, Ideal.mulf_def, hr, EReal.coe_mul]

/-- The square root of a non-negative real, taken in the extended reals, is the real square root. -/
theorem sqrt_real (s : ℝ) (hs : 0 ≤ s) : Ideal.sqrt (s : EReal) = (Real.sqrt s : EReal) := by
  rw [Ideal.sqrt_coe, if_neg (not_lt.2 hs)]

/-- The divisor `‖x b‖ + ε` of a real matrix is a positive real. -/
theorem den_real (x : FVec Ideal S64x4096 .f32) (hx : ∀ i, ∃ r : ℝ, x i = (r : EReal)) (i : S64x4096.Idx) :
    ∃ d : ℝ, 0 < d ∧ Read.val_main_v3 (F := Ideal) x i = (d : EReal) := by
  choose r hr using hx
  obtain ⟨e, he, hE⟩ := eps_pos
  have hs : 0 ≤ ∑ k : Fin 4096, r (Read.idx_main_call0_v1 (Read.idx_main_call0_v2 (Read.idx_main_v3 i)) k)
      * r (Read.idx_main_call0_v1 (Read.idx_main_call0_v2 (Read.idx_main_v3 i)) k) :=
    Finset.sum_nonneg fun k _ => mul_self_nonneg _
  refine ⟨Real.sqrt (∑ k : Fin 4096, r (Read.idx_main_call0_v1 (Read.idx_main_call0_v2 (Read.idx_main_v3 i)) k)
      * r (Read.idx_main_call0_v1 (Read.idx_main_call0_v2 (Read.idx_main_v3 i)) k)) + e,
    add_pos_of_nonneg_of_pos (Real.sqrt_nonneg _) he, ?_⟩
  rw [Read.val_main_v3_apply, Read.val_main_v2_apply, Read.val_main_v0_apply, Read.val_main_call0_v2_apply,
    Read.val_main_v1_apply, Read.val_main_cst_apply, rowsum_real x r hr, Ideal.hostUnary_sqrt_def, sqrt_real _ hs,
    Ideal.ofBits_def, hE, Ideal.addf_def, EReal.coe_add]

/-- Normalising real rows gives real rows. -/
theorem xn_real (x : FVec Ideal S64x4096 .f32) (hx : ∀ i, ∃ r : ℝ, x i = (r : EReal)) (b : Fin 64) (p : Fin 4096) :
    ∃ r : ℝ, xnOf x b p = (r : EReal) := by
  obtain ⟨d, hd, hD⟩ := den_real x hx (ix2 b p)
  obtain ⟨a, ha⟩ := hx (ix2 b p)
  refine ⟨a * (1 / d), ?_⟩
  unfold xnOf
  rw [Read.val_main_v4_apply, Ideal.hostDivf_def, hD, ha, Ideal.div_coe hd.ne', EReal.coe_mul]

/-! ## The reference at an index -/

/-- The indices the two contractions read, by coordinates. -/
theorem lidx17 (p q k : Fin 4096) : Read.lidx_main_v17 (ix2 p q) k = ix2 p k :=
  funext fun a => Fin.ext (by match a with | ⟨0, _⟩ => rfl | ⟨1, _⟩ => rfl)
theorem ridx17 (p q k : Fin 4096) : Read.ridx_main_v17 (ix2 p q) k = ix2 k q :=
  funext fun a => Fin.ext (by match a with | ⟨0, _⟩ => rfl | ⟨1, _⟩ => rfl)
theorem lidx5 (k q : Fin 4096) (b : Fin 64) : Read.lidx_main_v5 (ix2 k q) b = ix2 b k :=
  funext fun a => Fin.ext (by match a with | ⟨0, _⟩ => rfl | ⟨1, _⟩ => rfl)
theorem ridx5 (k q : Fin 4096) (b : Fin 64) : Read.ridx_main_v5 (ix2 k q) b = ix2 b q :=
  funext fun a => Fin.ext (by match a with | ⟨0, _⟩ => rfl | ⟨1, _⟩ => rfl)

/-- Two numbers below 4096 with the same 32-bit word are equal. -/
theorem eq_of_word_eq (k q : Fin 4096) (h : BitVec.ofNat 32 k.val = BitVec.ofNat 32 q.val) : k = q := by
  have h' := congrArg BitVec.toNat h
  simp only [BitVec.toNat_ofNat] at h'
  have hk := k.isLt
  have hq := q.isLt
  exact Fin.ext (by omega)

/-- The compared row and column numbers, converted to a float, are the identity matrix's entry. -/
theorem eye_read (k q : Fin 4096) : Read.val_main_v13 (F := Ideal) (ix2 k q) = Spec.eye k q := by
  rw [Read.val_main_v13_apply, Read.val_main_v12_apply, Read.val_main_v11_apply, Read.val_main_v8_apply,
    Read.val_main_v9_apply, Read.val_main_v10_apply, Read.val_main_c_apply]
  show (((IntOp.cmpi .eq (IntOp.addi (BitVec.ofNat 32 k.val) 0#32) (BitVec.ofNat 32 q.val)).toNat : ℝ) : EReal) = Spec.eye k q
  unfold Spec.eye IntOp.cmpi IntOp.addi
  rw [BitVec.add_zero]
  by_cases h : k = q
  · subst h; simp
  · have hne : BitVec.ofNat 32 k.val ≠ BitVec.ofNat 32 q.val := fun e => h (eq_of_word_eq k q e)
    simp [h, hne]

/-- The averaged outer product at `(k, q)`: the sum over the 64 rows of the products of normalised entries, over 64. -/
theorem outer_read (x1 : FVec Ideal S64x4096 .f32) (k q : Fin 4096) :
    Read.val_main_v7 (F := Ideal) x1 (ix2 k q) = Ideal.div (∑ b : Fin 64, xnOf x1 b k * xnOf x1 b q) Spec.c64 := by
  rw [Read.val_main_v7_apply, Read.val_main_v5_apply, Read.val_main_v6_apply, Read.val_main_cst_0_apply,
    Ideal.hostDivf_def, Ideal.ofBits_def]
  unfold Spec.c64 xnOf
  refine congrArg (Ideal.div · _) (Finset.sum_congr rfl fun b _ => ?_)
  rw [lidx5, ridx5]

/-- The matrix `I − α · o'` at `(k, q)`. -/
theorem factor_read (x1 : FVec Ideal S64x4096 .f32) (k q : Fin 4096) :
    Read.val_main_v16 (F := Ideal) x1 (ix2 k q)
      = Spec.eye k q - Spec.cAlpha * Ideal.div (∑ b : Fin 64, xnOf x1 b k * xnOf x1 b q) Spec.c64 := by
  rw [Read.val_main_v16_apply, Read.val_main_v15_apply, Read.val_main_v14_apply, Read.val_main_cst_1_apply,
    eye_read, outer_read, Ideal.subf_def, Ideal.mulf_def, Ideal.ofBits_def]
  rfl

/-- The reference's result at `(p, q)` is `Spec.refR` of the arguments' entries and the normalised rows. -/
theorem ref_eq (x0 : FVec Ideal S4096x4096 .f32) (x1 : FVec Ideal S64x4096 .f32) (x2 : FVec Ideal S4096x4096 .f32)
    (p q : Fin 4096) :
    Cert.ReferenceIdeal.Read.val_main_v20 (F := Ideal) x0 x1 x2 (ix2 p q)
      = Cert.Spec.refR (fun p q => x0 (ix2 p q)) (xnOf x1) (fun p q => x2 (ix2 p q)) p q := by
  rw [Read.val_main_v20_apply, Read.val_main_v17_apply, Read.val_main_v19_apply, Read.val_main_v18_apply,
    Read.val_main_cst_2_apply, Ideal.subf_def, Ideal.mulf_def, Ideal.ofBits_def]
  unfold Spec.refR
  refine congrArg₂ (· - ·) (Finset.sum_congr rfl fun k _ => ?_) rfl
  rw [lidx17, ridx17, factor_read]

end Cert.RefValue

end
-- ==== Proof.HostValue.lean ====
/-
  The array the first kernel region reads is the normalised rows: the kernel's program applies to `x` the very
  host operations the reference applies (squares, row sums, square root, `+ ε`, broadcast, divide), so entry (b, p)
  of that array is the reference's normalised entry (b, p).
-/
import proofs.«148084_j73916387164402_1_alg».proof.Proof.Gen.KernelIdeal.Regions
import proofs.«148084_j73916387164402_1_alg».proof.Proof.RefValue
import Idealize.ShloMosaic.Lib.StableHlo.Run
import Idealize.ShloMosaic.Lib.ValueIdx

noncomputable section

namespace Cert.KernelIdeal.HandValue

open Cert.KernelIdeal Cert.KernelIdeal.Gen
open Idealize.ShloMosaic Idealize.ShloMosaic.TcCoe Idealize.ShloMosaic.ValueIdx
open Idealize.SL Idealize.SL.Sem

/-- After the two host stretches, the buffer the first region reads holds the normalised rows of the argument. -/
theorem host_value (m : (ℓ : Loc nD τ sig) → Buf (Elt Ideal) ℓ) (c : Dev nD) (b : Fin 64) (p : Fin 4096) :
    (Gen.V2 (F := Ideal) m c main_v4 : S64x4096.Idx → EReal) (ix2 b p)
      = Cert.RefValue.xnOf (m ((c.tc : Thread nD τ).loc main_arg1)) b p := by
  -- the buffer after the two stretches, as the ten operations composed on the argument
  have e : (Gen.V2 (F := Ideal) m c main_v4 : S64x4096.Idx → EReal)
      = Host.divf (m ((c.tc : Thread nD τ).loc main_arg1)) (broadcastInDim S64x4096 ![0, 1] bcast_S64x1_S64x4096_0_1 (addf (Host.sqrt (broadcastInDim S64x1 ![0] bcast_S64_S64x1_0 (Host.reduceAdd (mulf (m ((c.tc : Thread nD τ).loc main_arg1)) (m ((c.tc : Thread nD τ).loc main_arg1))) (constant (F := Ideal) S_ .f32 0x00000000#32) reducesTo_S64x4096_S64_d1 h_S_))) (broadcastInDim S64x1 ![] bcast_S_S64x1 (constant (F := Ideal) S_ .f32 0x322BCC77#32)))) := by
    show StableHlo.after hostOps0_1 (StableHlo.after hostOps0 (fun b => m (c, b))) (Proc.devRef .tc main_v4) = _
    after_results
    rfl
  rw [e]
  -- the reference's normalised rows are the same ten operations composed, under its own names
  unfold Cert.RefValue.xnOf Cert.ReferenceIdeal.Read.val_main_v4 Cert.ReferenceIdeal.Read.val_main_v3
    Cert.ReferenceIdeal.Read.val_main_v2 Cert.ReferenceIdeal.Read.val_main_v1 Cert.ReferenceIdeal.Read.val_main_cst
    Cert.ReferenceIdeal.Read.val_main_v0 Cert.ReferenceIdeal.Read.val_main_call0_v2
    Cert.ReferenceIdeal.Read.val_main_call0_v1 Cert.ReferenceIdeal.Read.val_main_call0_v0
    Cert.ReferenceIdeal.Read.val_main_call0_cst
  rfl

end Cert.KernelIdeal.HandValue

end
-- ==== Proof.Finite.lean ====
/-
  The precondition says that the absolute value of every entry of the three arguments is below `+∞`; an extended
  real whose absolute value is below `+∞` is a real number.
-/
import proofs.«148084_j73916387164402_1_alg».proof.Proof.Gen.Pre_finite_inputs
import Idealize.ShloMosaic.PureOps.Ideal
import Idealize.ShloMosaic.Lib.ReduceAll

noncomputable section

namespace Cert.Finite

open Idealize.ShloMosaic Cert.Pre_finite_inputs Cert.Pre_finite_inputs.Gen

/-- The rank-0 shape has exactly one index. -/
instance : Subsingleton S_.Idx := ⟨fun _ _ => funext fun d => d.elim0⟩

/-- The `f32` word `0x7F800000` denotes `+∞`. -/
theorem inf_word : Ideal.ofBits .f32 0x7F800000#32 = (⊤ : EReal) := by
  simp [Ideal.ofBits, Ideal.ieee]

/-- An extended real whose absolute value `max x (-x)` is strictly below `+∞` is a real number: at `⊥` and at `⊤`
    the absolute value is `⊤`, which is not below itself. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- Whatever the shape: where the conjunction over all entries of `|x| < +∞` is one, every entry of `x` is real. The
    conjunction being one makes each compared bit one; the broadcast constant reads `+∞` at every index. -/
theorem reals_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
        (cmpf .olt (Host.absf x) (broadcastInDim s ![] hb (constant S_ .f32 0x7F800000#32)))
        (constantI S_ 1 1#1) hr hu j = 1#1) :
    ∀ i, ∃ r : ℝ, x i = (r : EReal) := by
  intro i
  have hi := Host.reduce_andi_all _ _ hr hu j e i
  exact real_of_abs_lt_inf (x i) hi

/-- Where the printed precondition is all ones, every entry of every argument is a real number. -/
theorem reals_of_pre (x0 : FVec Ideal S4096x4096 .f32) (x1 : FVec Ideal S64x4096 .f32) (x2 : FVec Ideal S4096x4096 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h (fun a => a.elim0)
  dsimp only [Cert.Pre_finite_inputs.fn] at h0
  obtain ⟨h01, h2⟩ := IntOp.andi_eq_one.1 h0
  obtain ⟨h0', h1⟩ := IntOp.andi_eq_one.1 h01
  exact ⟨reals_of_all x0 _ _ _ _ h0', reals_of_all x1 _ _ _ _ h1, reals_of_all x2 _ _ _ _ h2⟩

end Cert.Finite

end
-- ==== Proof.Algebra.lean ====
/-
  The law that joins the two programs: for real `W`, `xn`, `G`,
  `W p q − α · (∑ over eight stretches of k, W p k · o k q) − lr · G p q  =  (∑ k, W p k · (δ k q − α · o' k q)) − lr · G p q`.

  The road: every entry is the coercion of a real and the four constants are reals (`2⁻⁶` and `64` exactly), so both
  sides are coercions of real expressions; the eight stretches of 512 columns tile the 4096 columns, each column
  met once; and over the reals `∑ k, w k · (δ k q − α · (s k / 64)) = w q − α · ∑ k, w k · (s k · 2⁻⁶)`.
-/
import proofs.«148084_j73916387164402_1_alg».proof.Proof.Spec
import Mathlib.Algebra.BigOperators.Fin
import Mathlib.Algebra.BigOperators.Ring.Finset
import Mathlib.Data.EReal.Basic

noncomputable section

namespace Cert.Spec

open Idealize.ShloMosaic

/-! ### The four constants are real numbers -/

/-- The pattern `0x3C800000` (exponent field 121, zero fraction) denotes `2⁻⁶ = 1/64`. -/
theorem cInv64_eq : cInv64 = ((1 / 64 : ℝ) : EReal) := by
  unfold cInv64
  simp [Ideal.ofBits, Ideal.ieee, -EReal.coe_mul]; norm_num

/-- The pattern `0x42800000` (exponent field 133, zero fraction) denotes `2⁶ = 64`. -/
theorem c64_eq : c64 = ((64 : ℝ) : EReal) := by
  unfold c64
  simp [Ideal.ofBits, Ideal.ieee, -EReal.coe_mul]; norm_num

/-- The step-size pattern denotes a real: its exponent field is neither all ones nor zero, so it is a normal number. -/
theorem cAlpha_real : ∃ a : ℝ, cAlpha = (a : EReal) := by
  unfold cAlpha
  simp [Ideal.ofBits, Ideal.ieee, -EReal.coe_mul]

/-- The learning-rate pattern denotes a real, for the same reason. -/
theorem cLr_real : ∃ a : ℝ, cLr = (a : EReal) := by
  unfold cLr
  simp [Ideal.ofBits, Ideal.ieee, -EReal.coe_mul]

/-! ### Coercion of finite sums -/

/-- The coercion `ℝ → EReal` commutes with finite sums (it is additive and sends `0` to `0`). -/
theorem coe_sum {ι : Type*} (s : Finset ι) (f : ι → ℝ) :
    (∑ i ∈ s, ((f i : ℝ) : EReal)) = ((∑ i ∈ s, f i : ℝ) : EReal) := by
  induction s using Finset.cons_induction with
  | empty => simp
  | cons a s ha ih => rw [Finset.sum_cons, Finset.sum_cons, ih, EReal.coe_add]

/-- The sum over the 64 rows of products of real entries is the coercion of the real sum of products. -/
theorem row_products_coe (ξ : Fin 64 → Fin 4096 → ℝ) (k q : Fin 4096) :
    (∑ b : Fin 64, ((ξ b k : ℝ) : EReal) * ((ξ b q : ℝ) : EReal)) = ((∑ b : Fin 64, ξ b k * ξ b q : ℝ) : EReal) := by
  simp only [← EReal.coe_mul, coe_sum]

/-- The identity matrix's entry is the coercion of the real `δ k q`. -/
theorem eye_coe (k q : Fin 4096) : eye k q = ((if k = q then (1 : ℝ) else 0 : ℝ) : EReal) := by
  unfold eye
  split_ifs <;> simp

/-! ### The eight stretches tile the contracted axis -/

/-- Column `k` of stretch `n < 8` is column `512 n + k`: below 4096, so the reduction modulo 4096 does nothing. -/
theorem kcol_val (n : Fin 8) (k : Fin 512) : (kcol n.val k).val = k.val + 512 * n.val := by
  have hn := n.isLt
  have hk := k.isLt
  simp only [kcol]
  rw [Nat.mod_eq_of_lt (by omega)]
  omega

/-- A sum over the 4096 columns is the sum over the eight stretches of the sums over each stretch's 512 columns:
    `(n, k) ↦ 512 n + k` is a bijection of `Fin 8 × Fin 512` with `Fin 4096`. -/
theorem sum_stretches (f : Fin 4096 → EReal) :
    ∑ k : Fin 4096, f k = ∑ n : Fin 8, ∑ k : Fin 512, f (kcol n.val k) := by
  rw [← (finProdFinEquiv : Fin 8 × Fin 512 ≃ Fin 4096).sum_comp, Fintype.sum_prod_type]
  refine Finset.sum_congr rfl fun n _ => Finset.sum_congr rfl fun k _ => ?_
  congr 1
  apply Fin.ext
  rw [kcol_val]
  rfl

/-- After all eight stretches the running total, begun at zero, is the whole sum over the contracted axis. -/
theorem accK_eight (W o : Fin 4096 → Fin 4096 → EReal) (p q : Fin 4096) :
    accK W o p q 8 = ∑ k : Fin 4096, W p k * o k q := by
  rw [sum_stretches (fun k => W p k * o k q), Fin.sum_univ_eight]
  simp only [accK, zero_add]
  rfl

/-! ### The identity over the reals -/

/-- Multiplying a row `w` by `I − α · s / 64` leaves `w q` less `α` times the row's product with `s · 2⁻⁶`:
    `∑ k, w k · δ k q = w q`, and the real factor `α` comes out of the finite sum. -/
theorem real_identity (w s : Fin 4096 → ℝ) (α : ℝ) (q : Fin 4096) :
    ∑ k, w k * ((if k = q then (1 : ℝ) else 0) - α * (s k * (1 / 64)))
      = w q - α * ∑ k, w k * (s k * (1 / 64)) := by
  simp only [mul_sub, Finset.sum_sub_distrib, mul_ite, mul_one, mul_zero, Finset.sum_ite_eq', Finset.mem_univ,
    if_true, Finset.mul_sum]
  congr 1
  refine Finset.sum_congr rfl fun k _ => ?_
  ring

/-! ### Both sides as coercions of real expressions -/

/-- The averaged outer product of real rows is real: the sum of products times `2⁻⁶`. -/
theorem outerK_coe (ξ : Fin 64 → Fin 4096 → ℝ) (k q : Fin 4096) :
    outerK (fun b p => ((ξ b p : ℝ) : EReal)) k q = (((∑ b : Fin 64, ξ b k * ξ b q) * (1 / 64) : ℝ) : EReal) := by
  simp only [outerK, cInv64_eq, ← EReal.coe_mul, coe_sum]

/-- What the second kernel writes, for real inputs and real constants `α`, `lr`. -/
theorem mmK_coe (w g : Fin 4096 → Fin 4096 → ℝ) (ξ : Fin 64 → Fin 4096 → ℝ) (α lr : ℝ)
    (hα : cAlpha = (α : EReal)) (hlr : cLr = (lr : EReal)) (p q : Fin 4096) :
    mmK (fun p q => ((w p q : ℝ) : EReal)) (outerK (fun b p => ((ξ b p : ℝ) : EReal)))
        (fun p q => ((g p q : ℝ) : EReal)) p q
      = ((w p q - α * (∑ k, w p k * ((∑ b : Fin 64, ξ b k * ξ b q) * (1 / 64))) - lr * g p q : ℝ) : EReal) := by
  simp only [mmK, accK_eight, outerK_coe, hα, hlr, ← EReal.coe_mul, coe_sum, ← EReal.coe_sub]

/-- What the reference computes, for real inputs and real constants `α`, `lr`: dividing by `64` is multiplying by
    its reciprocal. -/
theorem refR_coe (w g : Fin 4096 → Fin 4096 → ℝ) (ξ : Fin 64 → Fin 4096 → ℝ) (α lr : ℝ)
    (hα : cAlpha = (α : EReal)) (hlr : cLr = (lr : EReal)) (p q : Fin 4096) :
    refR (fun p q => ((w p q : ℝ) : EReal)) (fun b p => ((ξ b p : ℝ) : EReal)) (fun p q => ((g p q : ℝ) : EReal)) p q
      = (((∑ k, w p k * ((if k = q then (1 : ℝ) else 0) - α * ((∑ b : Fin 64, ξ b k * ξ b q) * (1 / 64))))
            - lr * g p q : ℝ) : EReal) := by
  have h64 : (64 : ℝ) ≠ 0 := by norm_num
  simp only [refR, eye_coe, row_products_coe, c64_eq, Ideal.div_coe h64, hα, hlr, ← EReal.coe_mul, ← EReal.coe_sub,
    coe_sum]

/-! ### The law -/

/-- Both programs compute one function of real inputs. -/
theorem mmK_outerK_eq_refR (W G : Fin 4096 → Fin 4096 → EReal) (xn : Fin 64 → Fin 4096 → EReal)
    (hW : ∀ p q, ∃ r : ℝ, W p q = (r : EReal)) (hG : ∀ p q, ∃ r : ℝ, G p q = (r : EReal))
    (hx : ∀ b p, ∃ r : ℝ, xn b p = (r : EReal)) (p q : Fin 4096) :
    mmK W (outerK xn) G p q = refR W xn G p q := by
  choose w hw using hW
  choose g hg using hG
  choose ξ hξ using hx
  obtain ⟨α, hα⟩ := cAlpha_real
  obtain ⟨lr, hlr⟩ := cLr_real
  obtain rfl : W = fun p q => ((w p q : ℝ) : EReal) := funext fun p => funext fun q => hw p q
  obtain rfl : G = fun p q => ((g p q : ℝ) : EReal) := funext fun p => funext fun q => hg p q
  obtain rfl : xn = fun b p => ((ξ b p : ℝ) : EReal) := funext fun b => funext fun p => hξ b p
  rw [mmK_coe w g ξ α lr hα hlr, refR_coe w g ξ α lr hα hlr]
  exact congrArg (fun t : ℝ => ((t - lr * g p q : ℝ) : EReal))
    (real_identity (w p) (fun k => ∑ b : Fin 64, ξ b k * ξ b q) α q).symm

end Cert.Spec

end
-- ==== Proof.Bridge.lean ====
/-
  The two programs end with equal results.  The kernel's result array is what its second region's write-backs leave:
  `W − α · (W · o in eight stretches) − lr · G` entry by entry, where `o` is what the first region left in the array
  the second one reads, the averaged outer product of the array the first region read, which the host operations
  filled with the normalised rows of `x`.  The reference's result, read at an index, is
  `(∑ k, W · (δ − α · o')) − lr · G` over the same normalised rows.  Under the precondition every entry of `W`, `x`,
  `G` is a real number, hence so is every normalised entry, and for reals the two expressions are one function.
-/
import proofs.«148084_j73916387164402_1_alg».proof.Proof.Launch
import proofs.«148084_j73916387164402_1_alg».proof.Proof.R0Value
import proofs.«148084_j73916387164402_1_alg».proof.Proof.R1Value
import proofs.«148084_j73916387164402_1_alg».proof.Proof.HostValue
import proofs.«148084_j73916387164402_1_alg».proof.Proof.RefValue
import proofs.«148084_j73916387164402_1_alg».proof.Proof.Finite
import proofs.«148084_j73916387164402_1_alg».proof.Proof.Algebra

set_option maxRecDepth 16384

noncomputable section

namespace Cert.Bridge

open Cert.KernelIdeal Cert.KernelIdeal.Gen Cert.KernelIdeal.Hand Cert.KernelIdeal.HandValue
open Cert.KernelIdeal.HandValue.R0 Cert.KernelIdeal.HandValue.R1
open Idealize.ShloMosaic Idealize.ShloMosaic.TcCoe Idealize.ShloMosaic.ValueIdx
open Idealize.SL Idealize.SL.Sem

variable (m : (ℓ : Loc nD τ sig) → Buf (Elt Ideal) ℓ)

/-- The three arguments as the second region finds them: no earlier item wrote them. -/
theorem w_eq (c : Dev nD) : wArr (E3 m) c = m ((c.tc : Thread nD τ).loc main_arg0) :=
  (W3_of_ne m c main_arg0 (by decide)).trans <| (Gen.V2_of m c main_arg0 (by decide)).trans <| (Gen.V1_of m c main_arg0 (by decide)).trans rfl
theorem g_eq (c : Dev nD) : gArr (E3 m) c = m ((c.tc : Thread nD τ).loc main_arg2) :=
  (W3_of_ne m c main_arg2 (by decide)).trans <| (Gen.V2_of m c main_arg2 (by decide)).trans <| (Gen.V1_of m c main_arg2 (by decide)).trans rfl

/-- The array the second region reads as `o` is the first region's result: the averaged outer product of the
    normalised rows of the argument `x`. -/
theorem o_eq (c : Dev nD) (p q : Fin 4096) :
    oArr (E3 m) c (ix2 p q) = Cert.Spec.outerK (Cert.RefValue.xnOf (m ((c.tc : Thread nD τ).loc main_arg1))) p q := by
  show (W3 m c main_v5 : S4096x4096.Idx → EReal) (ix2 p q) = _
  rw [W3_v5]
  refine (outer_value (E2 m) c p q).trans ?_
  exact congrArg (fun f => Cert.Spec.outerK f p q) (funext fun b => funext fun p' => host_value m c b p')

/-- THE BRIDGE: under the precondition the kernel's result array is the reference's result term. -/
theorem result_eq (c : Dev nD)
    (hpre : Cert.Pre_finite_inputs.fn (F := Ideal) (m ((c.tc : Thread nD τ).loc main_arg0)) (m ((c.tc : Thread nD τ).loc main_arg1))
      (m ((c.tc : Thread nD τ).loc main_arg2)) = fun _ => 1#1) :
    (mmArr (E3 m) c : S4096x4096.Idx → EReal)
      = Cert.ReferenceIdeal.Read.val_main_v20 (F := Ideal) (m ((c.tc : Thread nD τ).loc main_arg0)) (m ((c.tc : Thread nD τ).loc main_arg1))
          (m ((c.tc : Thread nD τ).loc main_arg2)) := by
  obtain ⟨hW, hX, hG⟩ := Cert.Finite.reals_of_pre _ _ _ hpre
  funext i
  obtain ⟨p, q, rfl⟩ : ∃ (p q : Fin 4096), i = ix2 p q := ⟨i 0, i 1, eq_ix2 i⟩
  rw [Cert.RefValue.ref_eq, mm_value (E3 m) c p q]
  have ho : (fun p q => oArr (E3 m) c (ix2 p q)) = Cert.Spec.outerK (Cert.RefValue.xnOf (m ((c.tc : Thread nD τ).loc main_arg1))) :=
    funext fun p => funext fun q => o_eq m c p q
  rw [ho, w_eq, g_eq]
  exact Cert.Spec.mmK_outerK_eq_refR _ _ _ (fun p q => hW _) (fun p q => hG _)
    (fun b p => Cert.RefValue.xn_real _ hX b p) p q

end Cert.Bridge

end
-- ==== Proof.lean ====
/-
  The certificate of the rank-64 weight-decay update.  Kernel: the rows of `x` are normalised on the host; a first
  kernel forms their averaged outer product `o` block by block; a second multiplies `W` by `o` in eight stretches of
  the contracted axis, accumulating in a scratch, and closes with `W − α · (W · o) − lr · G`.  Reference:
  `W · (I − α · o') − lr · G` with `o'` the same outer product divided by 64.
  The three frames: each kernel program's run from the launch to the return (the two regions' proof data, the
  arrays two windows share dealt in half shares) leaves the arguments as launched; the reference's is its run with
  the result dropped.  The idealization rewrote nothing.  The values agree under the precondition, which makes every
  entry real: multiplying by 2⁻⁶ is dividing by 64, `∑ k, W p k · δ k q = W p q`, and a real factor distributes over
  a finite sum of reals.
-/
import proofs.«148084_j73916387164402_1_alg».proof.Defs
import proofs.«148084_j73916387164402_1_alg».proof.Proof.Gen.Kernel
import proofs.«148084_j73916387164402_1_alg».proof.Proof.Gen.KernelIdeal
import proofs.«148084_j73916387164402_1_alg».proof.Proof.Gen.ReferenceIdeal
import proofs.«148084_j73916387164402_1_alg».proof.Proof.Gen.Pre_finite_inputs
import proofs.«148084_j73916387164402_1_alg».proof.Proof.Gen.ReferenceIdeal.Run
import proofs.«148084_j73916387164402_1_alg».proof.Proof.Gen.ReferenceIdeal.Read
import proofs.«148084_j73916387164402_1_alg».proof.Proof.Launch
import proofs.«148084_j73916387164402_1_alg».proof.Proof.BitsLaunch
import proofs.«148084_j73916387164402_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs run, from memories agreeing on the arguments, to one result: the kernel's result array
    after its second region, which under the precondition is the reference's term. -/
theorem algebraic : Cert.algebraic_KernelIdeal_ReferenceIdeal := by
  intro m ρ m' ρ' hpre hagree
  refine ⟨fun c => (Cert.KernelIdeal.Hand.dat1 (Cert.KernelIdeal.Hand.E3 m) c).arrAt 4 Cert.KernelIdeal.cfg1.N,
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2]
  exact (Cert.Bridge.result_eq m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
